-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : IVec S8192 32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  main_v3
-- ==== Kernel.lean ====
abbrev S8192 : Shape := ⟨1, ![8192]⟩
abbrev S8192x1 : Shape := ⟨2, ![8192, 1]⟩
abbrev S1x8192 : Shape := ⟨2, ![1, 8192]⟩
abbrev S128x1 : Shape := ⟨2, ![128, 1]⟩
abbrev S128x8192 : Shape := ⟨2, ![128, 8192]⟩
abbrev S128 : Shape := ⟨1, ![128]⟩
abbrev S_ : Shape := ⟨0, ![]⟩
abbrev S1 : Shape := ⟨1, ![1]⟩

abbrev nBuf : Space → Nat
  | .hbm => 38
  | .vmem => 16
  | .smem => 0
  | _ => 0

abbrev bufTy : (tb : Table) → Fin (tcTables nBuf tb) → BufTy
  | .hbm, ⟨0, _⟩ => ⟨S8192, .f32⟩
  | .hbm, ⟨1, _⟩ => ⟨S8192, .i32⟩
  | .hbm, ⟨2, _⟩ => ⟨S8192x1, .f32⟩
  | .hbm, ⟨3, _⟩ => ⟨S1x8192, .f32⟩
  | .hbm, ⟨4, _⟩ => ⟨S8192x1, .i32⟩
  | .hbm, ⟨5, _⟩ => ⟨S1x8192, .i32⟩
  | .hbm, ⟨6, _⟩ => ⟨S8192x1, .f32⟩
  | .hbm, ⟨7, _⟩ => ⟨S8192x1, .f32⟩
  | .hbm, ⟨8, _⟩ => ⟨S8192x1, .f32⟩
  | .hbm, ⟨9, _⟩ => ⟨S8192x1, .f32⟩
  | .hbm, ⟨10, _⟩ => ⟨S8192x1, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192, .f32⟩
  | .hbm, ⟨22, _⟩ => ⟨S8192, .i1⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S_, .f32⟩
  | .hbm, ⟨37, _⟩ => ⟨S_, .f32⟩
  | .local _ .vmem, ⟨0, _⟩ => ⟨S128x1, .f32⟩
  | .local _ .vmem, ⟨1, _⟩ => ⟨S128x1, .f32⟩
  | .local _ .vmem, ⟨2, _⟩ => ⟨S1x8192, .f32⟩
  | .local _ .vmem, ⟨3, _⟩ => ⟨S128x1, .i32⟩
  | .local _ .vmem, ⟨4, _⟩ => ⟨S128x1, .i32⟩
  | .local _ .vmem, ⟨5, _⟩ => ⟨S1x8192, .i32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S128x1, .f32⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S128x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_v4_3 : Ref sig .tc := ⟨.hbm, 9, rfl⟩
abbrev main_v4_4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S8192_S8192x1 : S8192.ShapeCasts S8192x1
  shapeCasts_S8192_S1x8192 : S8192.ShapeCasts S1x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  shapeCasts_S8192x1_S8192 : S8192x1.ShapeCasts S8192
  reducesTo_S8192_S_d0 : S8192.ReducesTo [0] S_
  h_S_ : 0 < S_.numel
  bcast_S_S8192 : S_.BroadcastsInDim S8192 (![] : Fin 0 → Fin S8192.rank)
  slices_S8192_S1_8191 : S8192.Slices ![8191] S1
  shapeCasts_S1_S_ : S1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S8192x1.size a
  hwx0_0 : ∀ i : grid0.Coords, EltTy.bits .f32 = 32 ∨ (Rect.block (s := S8192x1) S128x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S8192x1.size a
  hwx0_4 : ∀ i : grid0.Coords, EltTy.bits .f32 = 32 ∨ (Rect.block (s := S8192x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S8192x1.size a
  hwx0_5 : ∀ i : grid0.Coords, EltTy.bits .f32 = 32 ∨ (Rect.block (s := S8192x1) S128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S8192x1.size a
  hwx0_6 : ∀ i : grid0.Coords, EltTy.bits .f32 = 32 ∨ (Rect.block (s := S8192x1) S128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S8192x1.size a
  hwx0_7 : ∀ i : grid0.Coords, EltTy.bits .f32 = 32 ∨ (Rect.block (s := S8192x1) S128x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S8192x1.size a
  hwx0_8 : ∀ i : grid0.Coords, EltTy.bits .f32 = 32 ∨ (Rect.block (s := S8192x1) S128x1.size (cc0_transform_8 i) (hinb0_8 i)).WholeWords (EltTy.packing .f32)

variable [Facts₀]

abbrev win0_0 : Pipeline.Window sig grid0 :=
  Pipeline.Window.ofSpec (Memref.whole main_v0) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S128x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S128x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_3) S128x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_4) S128x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 103
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .i32⟩
  | .hbm, ⟨2, _⟩ => ⟨S8192x1, .f32⟩
  | .hbm, ⟨3, _⟩ => ⟨S1x8192, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x1, .i32⟩
  | .hbm, ⟨9, _⟩ => ⟨S1x8192, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S8192x8192, .f32⟩
  | .hbm, ⟨15, _⟩ => ⟨S8192x8192, .i1⟩
  | .hbm, ⟨16, _⟩ => ⟨S8192x8192, .i1⟩
  | .hbm, ⟨17, _⟩ => ⟨S8192x8192, .i1⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S8192x8192, .f32⟩
  | .hbm, ⟨27, _⟩ => ⟨S8192x8192, .i1⟩
  | .hbm, ⟨28, _⟩ => ⟨S8192x8192, .i1⟩
  | .hbm, ⟨29, _⟩ => ⟨S_, .i1⟩
  | .hbm, ⟨30, _⟩ => ⟨S8192, .i1⟩
  | .hbm, ⟨31, _⟩ => ⟨S8192x1, .i1⟩
  | .hbm, ⟨32, _⟩ => ⟨S8192x8192, .i1⟩
  | .hbm, ⟨33, _⟩ => ⟨S8192x8192, .i1⟩
  | .hbm, ⟨34, _⟩ => ⟨S8192x8192, .i1⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8192, .f32⟩
  | .hbm, ⟨69, _⟩ => ⟨S8192, .i1⟩
  | .hbm, ⟨70, _⟩ => ⟨S8192, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1x8192, .f32⟩
  | .hbm, ⟨76, _⟩ => ⟨S8192, .f32⟩
  | .hbm, ⟨77, _⟩ => ⟨S1x8192, .i1⟩
  | .hbm, ⟨78, _⟩ => ⟨S8192, .i1⟩
  | .hbm, ⟨79, _⟩ => ⟨S1x8192, .i1⟩
  | .hbm, ⟨80, _⟩ => ⟨S8192, .i1⟩
  | .hbm, ⟨81, _⟩ => ⟨S_, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S_, .f32⟩
  | .hbm, ⟨86, _⟩ => ⟨S_, .f32⟩
  | .hbm, ⟨87, _⟩ => ⟨S8192, .i32⟩
  | .hbm, ⟨88, _⟩ => ⟨S_, .i32⟩
  | .hbm, ⟨89, _⟩ => ⟨S_, .i32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S8192, .f32⟩
  | .hbm, ⟨95, _⟩ => ⟨S8192, .f32⟩
  | .hbm, ⟨96, _⟩ => ⟨S_, .f32⟩
  | .hbm, ⟨97, _⟩ => ⟨S_, .f32⟩
  | .hbm, ⟨98, _⟩ => ⟨S8192, .i32⟩
  | .hbm, ⟨99, _⟩ => ⟨S_, .i32⟩
  | .hbm, ⟨100, _⟩ => ⟨S_, .i32⟩
  | .hbm, ⟨101, _⟩ => ⟨S_, .f32⟩
  | .hbm, ⟨102, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_v23 : Ref sig .tc := ⟨.hbm, 31, rfl⟩
abbrev main_call1_v0 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_call2_v0 : Ref sig .tc := ⟨.hbm, 48, rfl⟩
abbrev main_call2_v1 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_cst_7 : Ref sig .tc := ⟨.hbm, 53, rfl⟩
abbrev main_call3_v0 : Ref sig .tc := ⟨.hbm, 54, rfl⟩
abbrev main_call3_v1 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_12 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_14 : Ref sig .tc := ⟨.hbm, 81, rfl⟩
abbrev main_call4_v0 : Ref sig .tc := ⟨.hbm, 82, rfl⟩
abbrev main_call4_v1 : Ref sig .tc := ⟨.hbm, 83, rfl⟩
abbrev main_v56 : Ref sig .tc := ⟨.hbm, 84, rfl⟩
abbrev main_cst_15 : Ref sig .tc := ⟨.hbm, 85, rfl⟩
abbrev main_v57 : Ref sig .tc := ⟨.hbm, 86, rfl⟩
abbrev main_v58 : Ref sig .tc := ⟨.hbm, 87, rfl⟩
abbrev main_c_16 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_17 : Ref sig .tc := ⟨.hbm, 92, rfl⟩
abbrev main_call5_v0 : Ref sig .tc := ⟨.hbm, 93, rfl⟩
abbrev main_call5_v1 : Ref sig .tc := ⟨.hbm, 94, rfl⟩
abbrev main_v62 : Ref sig .tc := ⟨.hbm, 95, rfl⟩
abbrev main_cst_18 : Ref sig .tc := ⟨.hbm, 96, rfl⟩
abbrev main_v63 : Ref sig .tc := ⟨.hbm, 97, rfl⟩
abbrev main_v64 : Ref sig .tc := ⟨.hbm, 98, rfl⟩
abbrev main_c_19 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_
  slices_S8192x8192_S1x8192_8191_0 : S8192x8192.Slices ![8191, 0] S1x8192
  shapeCasts_S1x8192_S8192 : S1x8192.ShapeCasts S8192
  natLt_1_32 : 1 < 32

variable [Facts₀]

class Facts : Prop extends Facts₀ where

variable [Facts]
-- ==== Proof.Row.lean ====
/-
  One row of the pairwise neighbourhood loss, on the extended reals.

  A row has a score a and a label ta; it is compared with all 8192 scores xs k and labels ts k.  The distance to column k
  is d k = |a - xs k| (written max (a - xs k) (-(a - xs k))).  Column k is a POSITIVE of the row when the labels agree and
  d k < 1, a NEGATIVE when the labels differ.  The row's threshold is the largest distance over its positives and negatives
  (minus infinity over none); a column is NEAR when its distance is strictly below the threshold.  The row's weights are
  exp (16 * (mean d - d k)), the mean over all 8192 columns.  The positive logit is the weight summed over the near
  positives when the row has one, over all positives otherwise; the negative logit the weight summed over the near
  negatives; the row's loss is 0 - log (pos / (pos + neg)).  Beside the loss a row has four plain statistics: the summed
  distance and the number of its positives, and of its negatives.

  Masks are one-bit words and a masked sum adds "the term where the bit is one, zero elsewhere"; every operation is the
  extended reals' own, with that arithmetic's conventions at its corners (nothing here asks the scores to be finite).

  From the rows: the mean loss, the fraction of rows whose loss is below 0.6, and the last row's mean positive and mean
  negative distance.
-/
import Idealize.ShloMosaic.PureOps.Ideal
import Idealize.ShloMosaic.Lib.ValueIdx

open scoped BigOperators

noncomputable section

namespace Cert.Row

open Idealize.ShloMosaic Idealize.ShloMosaic.ValueIdx

/-- The f32 patterns the loss uses, as extended reals: 1, 0, minus infinity, 8192, 16 and 0.6 (rounded to f32). -/
abbrev one : EReal := Ideal.ofBits .f32 0x3F800000#32
abbrev zero : EReal := Ideal.ofBits .f32 0x00000000#32
abbrev negInf : EReal := Ideal.ofBits .f32 0xFF800000#32
abbrev width : EReal := Ideal.ofBits .f32 0x46000000#32
abbrev sharp : EReal := Ideal.ofBits .f32 0x41800000#32
abbrev cut : EReal := Ideal.ofBits .f32 0x3F19999A#32

/-- The distance from the row's score to column k's. -/
def dist (a : EReal) (xs : Fin 8192 → EReal) (k : Fin 8192) : EReal := max (a - xs k) (-(a - xs k))

/-- Column k has the row's label. -/
def same (ta : BitVec 32) (ts : Fin 8192 → BitVec 32) (k : Fin 8192) : BitVec 1 := IntOp.cmpi .eq ta (ts k)

/-- Column k is a positive of the row: same label, distance below one. -/
def pos (a : EReal) (ta : BitVec 32) (xs : Fin 8192 → EReal) (ts : Fin 8192 → BitVec 32) (k : Fin 8192) : BitVec 1 :=
  IntOp.andi (same ta ts k) (Ideal.cmp .olt (dist a xs k) one)

/-- Column k is a negative of the row: another label. -/
def neg (ta : BitVec 32) (ts : Fin 8192 → BitVec 32) (k : Fin 8192) : BitVec 1 := IntOp.xori (same ta ts k) 1#1

/-- The row's threshold: the largest distance over its positives and negatives. -/
def thresh (a : EReal) (ta : BitVec 32) (xs : Fin 8192 → EReal) (ts : Fin 8192 → BitVec 32) : EReal :=
  (Finset.univ : Finset (Fin 8192)).fold max negInf
    (fun k => Scalar.select (IntOp.ori (pos a ta xs ts k) (neg ta ts k)) (dist a xs k) negInf)

/-- Column k is near: strictly below the threshold. -/
def near (a : EReal) (ta : BitVec 32) (xs : Fin 8192 → EReal) (ts : Fin 8192 → BitVec 32) (k : Fin 8192) : BitVec 1 :=
  Ideal.cmp .olt (dist a xs k) (thresh a ta xs ts)

def posNear (a : EReal) (ta : BitVec 32) (xs : Fin 8192 → EReal) (ts : Fin 8192 → BitVec 32) (k : Fin 8192) : BitVec 1 :=
  IntOp.andi (pos a ta xs ts k) (near a ta xs ts k)

def negNear (a : EReal) (ta : BitVec 32) (xs : Fin 8192 → EReal) (ts : Fin 8192 → BitVec 32) (k : Fin 8192) : BitVec 1 :=
  IntOp.andi (neg ta ts k) (near a ta xs ts k)

/-- The row's mean distance. -/
def base (a : EReal) (xs : Fin 8192 → EReal) : EReal := Ideal.div (∑ k, dist a xs k) width

/-- Column k's weight. -/
def weight (a : EReal) (xs : Fin 8192 → EReal) (k : Fin 8192) : EReal := Ideal.exp (sharp * (base a xs - dist a xs k))

/-- The row has a near positive: their number is greater than zero. -/
def hasNear (a : EReal) (ta : BitVec 32) (xs : Fin 8192 → EReal) (ts : Fin 8192 → BitVec 32) : BitVec 1 :=
  Ideal.cmp .ogt (∑ k, Scalar.select (posNear a ta xs ts k) one zero) zero

def posLogit (a : EReal) (ta : BitVec 32) (xs : Fin 8192 → EReal) (ts : Fin 8192 → BitVec 32) : EReal :=
  Scalar.select (hasNear a ta xs ts)
    (∑ k, Scalar.select (posNear a ta xs ts k) (weight a xs k) zero)
    (∑ k, Scalar.select (pos a ta xs ts k) (weight a xs k) zero)

def negLogit (a : EReal) (ta : BitVec 32) (xs : Fin 8192 → EReal) (ts : Fin 8192 → BitVec 32) : EReal :=
  ∑ k, Scalar.select (negNear a ta xs ts k) (weight a xs k) zero

/-- The row's loss. -/
def loss (a : EReal) (ta : BitVec 32) (xs : Fin 8192 → EReal) (ts : Fin 8192 → BitVec 32) : EReal :=
  zero - Ideal.log (Ideal.div (posLogit a ta xs ts) (posLogit a ta xs ts + negLogit a ta xs ts))

/-- The row's four statistics. -/
def posSum (a : EReal) (ta : BitVec 32) (xs : Fin 8192 → EReal) (ts : Fin 8192 → BitVec 32) : EReal :=
  ∑ k, Scalar.select (pos a ta xs ts k) (dist a xs k) zero
def posCnt (a : EReal) (ta : BitVec 32) (xs : Fin 8192 → EReal) (ts : Fin 8192 → BitVec 32) : EReal :=
  ∑ k, Scalar.select (pos a ta xs ts k) one zero
def negSum (a : EReal) (ta : BitVec 32) (xs : Fin 8192 → EReal) (ts : Fin 8192 → BitVec 32) : EReal :=
  ∑ k, Scalar.select (neg ta ts k) (dist a xs k) zero
def negCnt (ta : BitVec 32) (ts : Fin 8192 → BitVec 32) : EReal :=
  ∑ k, Scalar.select (neg ta ts k) one zero

/-! ## The four results, from the arrays of scores and labels -/

/-- A length-8192 array. -/
abbrev V : Shape := ⟨1, ![8192]⟩

/-- An array read as a function of the position. -/
abbrev col {α : Type} (f : V.Idx → α) (k : Fin 8192) : α := f (ix1 k)

/-- Row i's loss. -/
def lossAt (x : V.Idx → EReal) (t : V.Idx → BitVec 32) (i : Fin 8192) : EReal :=
  loss (x (ix1 i)) (t (ix1 i)) (col x) (col t)

/-- The last row. -/
abbrev last : Fin 8192 := ⟨8191, by decide⟩

/-- The mean loss over the rows. -/
def meanLoss (x : V.Idx → EReal) (t : V.Idx → BitVec 32) : EReal :=
  Ideal.div (zero + ∑ j : V.Idx, lossAt x t (j 0)) width

/-- The fraction of rows whose loss is below the cut. -/
def fracBelow (x : V.Idx → EReal) (t : V.Idx → BitVec 32) : EReal :=
  Ideal.div (zero + ∑ j : V.Idx, ((((Ideal.cmp .olt (lossAt x t (j 0)) cut).toNat : ℕ) : ℝ) : EReal)) width

/-- Row i's four statistics. -/
def posSumAt (x : V.Idx → EReal) (t : V.Idx → BitVec 32) (i : Fin 8192) : EReal := posSum (x (ix1 i)) (t (ix1 i)) (col x) (col t)
def posCntAt (x : V.Idx → EReal) (t : V.Idx → BitVec 32) (i : Fin 8192) : EReal := posCnt (x (ix1 i)) (t (ix1 i)) (col x) (col t)
def negSumAt (x : V.Idx → EReal) (t : V.Idx → BitVec 32) (i : Fin 8192) : EReal := negSum (x (ix1 i)) (t (ix1 i)) (col x) (col t)
def negCntAt (t : V.Idx → BitVec 32) (i : Fin 8192) : EReal := negCnt (t (ix1 i)) (col t)

/-- The last row's mean positive distance and mean negative distance. -/
def meanPos (x : V.Idx → EReal) (t : V.Idx → BitVec 32) : EReal := Ideal.div (posSumAt x t last) (posCntAt x t last)
def meanNeg (x : V.Idx → EReal) (t : V.Idx → BitVec 32) : EReal := Ideal.div (negSumAt x t last) (negCntAt t last)

end Cert.Row

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.KernelRow.lean ====
/-
  What the kernel's body computes, one row at a time.

  The body loads a block of 128 rows' scores and labels (two 128 x 1 columns) and all 8192 columns' scores and labels (two
  1 x 8192 rows).  Every value it forms on the 128 x 8192 tile depends, at (p, k), on row p's and column k's entries only:
  the distance, the masks, the weight.  Every value it stores is a reduction of such a tile over the columns, kept as a
  128 x 1 column.  So each stored block, read at row p, is the row specification (Row.lean) of the block's row p against
  all the columns: the loss, the positives' summed distance and number, and the negatives'.
-/
import proofs.«403971_j50818053046733_3_alg».proof.Proof.Gen.KernelIdeal.Skeleton
import proofs.«403971_j50818053046733_3_alg».proof.Proof.Row
import proofs.«403971_j50818053046733_3_alg».proof.Proof.LibColumn
import Idealize.ShloMosaic.PureOps.Ideal.Laws
import Idealize.ShloMosaic.Lib.Pipeline.Value
import Idealize.ShloMosaic.Lib.ValueLayout

open scoped BigOperators

noncomputable section

namespace Cert.KernelIdeal.RowValue

open Idealize.ShloMosaic Idealize.ShloMosaic.ValueIdx Cert.KernelIdeal Cert.KernelIdeal.Gen

/-! ## Reductions over the columns, kept as a column -/

/-- Entry (p, k) of the tile is row index p with k put on the column axis. -/
theorem lift_eq (h : S128x8192.Reduces [1] S128) (p : Fin 128) (k : Fin 8192) : h.lift (ix1 p) k = ix2 p k :=
  funext fun a => Fin.ext (by match a with | ⟨0, _⟩ => rfl | ⟨1, _⟩ => rfl)

/-- A sum over the columns kept as a column, read at row p. -/
theorem colSum_apply (src : FVec Ideal S128x8192 .f32) (h : S128x8192.Reduces [1] S128) (hφ : FKind.Formats .f32)
    (hacc : (0x00000000#32 : BitVec 32) = FKind.add.neutral .f32 hφ) (hc : S128.ShapeCasts S128x1) (p : Fin 128) :
    shapeCast S128x1 (multiReduction .add [1] S128 src 0x00000000#32 h hφ hacc) hc (ix2 p (0 : Fin 1))
      = ∑ k : Fin 8192, src (ix2 p k) := by
  rw [Cert.LibColumn.shapeCast_a_a1_apply, Ideal.multiReduction_add_single]
  exact Finset.sum_congr rfl fun k _ => congrArg src (lift_eq h p k)

/-- The sum itself, before it is made a column, read at row p. -/
theorem rowSum_apply (src : FVec Ideal S128x8192 .f32) (h : S128x8192.Reduces [1] S128) (hφ : FKind.Formats .f32)
    (hacc : (0x00000000#32 : BitVec 32) = FKind.add.neutral .f32 hφ) (p : Fin 128) :
    multiReduction .add [1] S128 src 0x00000000#32 h hφ hacc (ix1 p) = ∑ k : Fin 8192, src (ix2 p k) := by
  rw [Ideal.multiReduction_add_single]
  exact Finset.sum_congr rfl fun k _ => congrArg src (lift_eq h p k)

/-- A largest-over-the-columns from minus infinity kept as a column, read at row p. -/
theorem colMax_apply (src : FVec Ideal S128x8192 .f32) (h : S128x8192.Reduces [1] S128) (hφ : FKind.Formats .f32)
    (hacc : (0xFF800000#32 : BitVec 32) = FKind.maximumf.neutral .f32 hφ) (hc : S128.ShapeCasts S128x1) (p : Fin 128) :
    shapeCast S128x1 (multiReduction .maximumf [1] S128 src 0xFF800000#32 h hφ hacc) hc (ix2 p (0 : Fin 1))
      = (Finset.univ : Finset (Fin 8192)).fold max Row.negInf (fun k => src (ix2 p k)) := by
  rw [Cert.LibColumn.shapeCast_a_a1_apply, Ideal.multiReduction_maximumf_single]
  exact congrArg (fun f => (Finset.univ : Finset (Fin 8192)).fold max Row.negInf f) (funext fun k => congrArg src (lift_eq h p k))

/-! ## The tile, at (p, k) -/

variable (x0 : Vec Ideal S128x1 .f32) (x1 : Vec Ideal S1x8192 .f32) (x2 : Vec Ideal S128x1 .i32) (x3 : Vec Ideal S1x8192 .i32)

/-- The columns' scores and labels, by position. -/
abbrev scs : Fin 8192 → EReal := fun k => x1 (ix2 (0 : Fin 1) k)
abbrev lbs : Fin 8192 → BitVec 32 := fun k => x3 (ix2 (0 : Fin 1) k)

/-- The distances. -/
theorem dist_apply (p : Fin 128) (k : Fin 8192) :
    k0_pay1 x0 x1 (ix2 p k) = Row.dist (x0 (ix2 p (0 : Fin 1))) (scs x1) k := by
  unfold k0_pay1 Row.dist
  show max (broadcastTo S128x8192 (shapeCast S128x1 x0 _) _ (ix2 p k) - broadcastTo S128x8192 (shapeCast S1x8192 x1 _) _ (ix2 p k))
      (-(broadcastTo S128x8192 (shapeCast S128x1 x0 _) _ (ix2 p k) - broadcastTo S128x8192 (shapeCast S1x8192 x1 _) _ (ix2 p k))) = _
  rw [Cert.LibColumn.broadcastTo_a1_ab_apply, broadcastTo_1b_ab_apply, shapeCast_self, shapeCast_self]

/-- Equal labels. -/
theorem same_apply (p : Fin 128) (k : Fin 8192) :
    k0_pay2 (F := Ideal) x2 x3 (ix2 p k) = Row.same (x2 (ix2 p (0 : Fin 1))) (lbs x3) k := by
  unfold k0_pay2 Row.same
  show IntOp.cmpi .eq (broadcastTo S128x8192 (shapeCast S128x1 x2 _) _ (ix2 p k)) (broadcastTo S128x8192 (shapeCast S1x8192 x3 _) _ (ix2 p k)) = _
  rw [Cert.LibColumn.broadcastTo_a1_ab_apply, broadcastTo_1b_ab_apply, shapeCast_self, shapeCast_self]

/-- The positives. -/
theorem pos_apply (p : Fin 128) (k : Fin 8192) :
    k0_pay3 x0 x1 x2 x3 (ix2 p k) = Row.pos (x0 (ix2 p (0 : Fin 1))) (x2 (ix2 p (0 : Fin 1))) (scs x1) (lbs x3) k := by
  unfold k0_pay3 Row.pos
  show IntOp.andi (k0_pay2 (F := Ideal) x2 x3 (ix2 p k)) (Ideal.cmp .olt (k0_pay1 x0 x1 (ix2 p k)) Row.one) = _
  rw [same_apply, dist_apply]

/-- The negatives. -/
theorem neg_apply (p : Fin 128) (k : Fin 8192) :
    k0_pay4 (F := Ideal) x2 x3 (ix2 p k) = Row.neg (x2 (ix2 p (0 : Fin 1))) (lbs x3) k := by
  unfold k0_pay4 Row.neg
  show IntOp.xori (k0_pay2 (F := Ideal) x2 x3 (ix2 p k)) 1#1 = _
  rw [same_apply]

/-- A masked sum over the columns kept as a column, read at row p: the mask's bit picks the term or zero. -/
theorem maskedSum_apply (c : IVec S128x8192 1) (v : FVec Ideal S128x8192 .f32) (h : S128x8192.Reduces [1] S128)
    (hφ : FKind.Formats .f32) (hacc : (0x00000000#32 : BitVec 32) = FKind.add.neutral .f32 hφ) (hc : S128.ShapeCasts S128x1) (p : Fin 128) :
    shapeCast S128x1 (multiReduction .add [1] S128
        (select c v (broadcast S128x8192 (Scalar.ofBits (F := Ideal) .f32 0x00000000#32))) 0x00000000#32 h hφ hacc) hc (ix2 p (0 : Fin 1))
      = ∑ k : Fin 8192, Scalar.select (c (ix2 p k)) (v (ix2 p k)) Row.zero :=
  colSum_apply _ h hφ hacc hc p

/-- A masked count over the columns kept as a column, read at row p: the mask's bit picks one or zero. -/
theorem maskedCount_apply (c : IVec S128x8192 1) (h : S128x8192.Reduces [1] S128)
    (hφ : FKind.Formats .f32) (hacc : (0x00000000#32 : BitVec 32) = FKind.add.neutral .f32 hφ) (hc : S128.ShapeCasts S128x1) (p : Fin 128) :
    shapeCast S128x1 (multiReduction .add [1] S128
        (select c (broadcast S128x8192 (Scalar.ofBits (F := Ideal) .f32 0x3F800000#32)) (broadcast S128x8192 (Scalar.ofBits (F := Ideal) .f32 0x00000000#32)))
        0x00000000#32 h hφ hacc) hc (ix2 p (0 : Fin 1))
      = ∑ k : Fin 8192, Scalar.select (c (ix2 p k)) Row.one Row.zero :=
  colSum_apply _ h hφ hacc hc p

/-- The rows' thresholds, spread over the tile: each row's largest distance over its positives and negatives. -/
def thrTile : FVec Ideal S128x8192 .f32 :=
  broadcastTo S128x8192 (shapeCast S128x1 (multiReduction .maximumf [1] S128
    (select (ori (k0_pay3 x0 x1 x2 x3) (k0_pay4 (F := Ideal) x2 x3)) (k0_pay1 x0 x1) (broadcast S128x8192 (Scalar.ofBits (F := Ideal) .f32 0xFF800000#32)))
    0xFF800000#32 reduces_S128x8192_S128 (.inl rfl) rfl) shapeCasts_S128_S128x1) broadcasts_S128x1_S128x8192

/-- The "near" mask compares the distances with that tile (as whole tiles: no entry is evaluated). -/
theorem near_eq : k0_pay5 x0 x1 x2 x3 = cmpf .olt (k0_pay1 x0 x1) (thrTile x0 x1 x2 x3) := rfl

/-- The threshold tile at (p, k) is row p's threshold. -/
theorem thrTile_apply (p : Fin 128) (k : Fin 8192) :
    thrTile x0 x1 x2 x3 (ix2 p k) = Row.thresh (x0 (ix2 p (0 : Fin 1))) (x2 (ix2 p (0 : Fin 1))) (scs x1) (lbs x3) := by
  have hsel : ∀ k' : Fin 8192,
      select (ori (k0_pay3 x0 x1 x2 x3) (k0_pay4 (F := Ideal) x2 x3)) (k0_pay1 x0 x1)
          (broadcast S128x8192 (Scalar.ofBits (F := Ideal) .f32 0xFF800000#32)) (ix2 p k')
        = Scalar.select (IntOp.ori (Row.pos (x0 (ix2 p (0 : Fin 1))) (x2 (ix2 p (0 : Fin 1))) (scs x1) (lbs x3) k') (Row.neg (x2 (ix2 p (0 : Fin 1))) (lbs x3) k'))
            (Row.dist (x0 (ix2 p (0 : Fin 1))) (scs x1) k') Row.negInf := fun k' => by
    show Scalar.select (IntOp.ori (k0_pay3 x0 x1 x2 x3 (ix2 p k')) (k0_pay4 (F := Ideal) x2 x3 (ix2 p k'))) (k0_pay1 x0 x1 (ix2 p k')) Row.negInf = _
    rw [pos_apply, neg_apply, dist_apply]
  unfold thrTile Row.thresh
  refine (Cert.LibColumn.broadcastTo_a1_ab_apply _ _ p k).trans ((colMax_apply _ _ _ _ _ p).trans ?_)
  exact congrArg (fun f => (Finset.univ : Finset (Fin 8192)).fold max Row.negInf f) (funext hsel)

/-- Below the row's threshold. -/
theorem near_apply (p : Fin 128) (k : Fin 8192) :
    k0_pay5 x0 x1 x2 x3 (ix2 p k) = Row.near (x0 (ix2 p (0 : Fin 1))) (x2 (ix2 p (0 : Fin 1))) (scs x1) (lbs x3) k := by
  unfold Row.near
  rw [near_eq, cmpf_apply, Ideal.cmpf_def, dist_apply, thrTile_apply]

/-- The near positives and the near negatives. -/
theorem posNear_apply (p : Fin 128) (k : Fin 8192) :
    k0_pay6 x0 x1 x2 x3 (ix2 p k) = Row.posNear (x0 (ix2 p (0 : Fin 1))) (x2 (ix2 p (0 : Fin 1))) (scs x1) (lbs x3) k := by
  unfold k0_pay6 Row.posNear
  show IntOp.andi (k0_pay3 x0 x1 x2 x3 (ix2 p k)) (k0_pay5 x0 x1 x2 x3 (ix2 p k)) = _
  rw [pos_apply, near_apply]
theorem negNear_apply (p : Fin 128) (k : Fin 8192) :
    k0_pay7 x0 x1 x2 x3 (ix2 p k) = Row.negNear (x0 (ix2 p (0 : Fin 1))) (x2 (ix2 p (0 : Fin 1))) (scs x1) (lbs x3) k := by
  unfold k0_pay7 Row.negNear
  show IntOp.andi (k0_pay4 (F := Ideal) x2 x3 (ix2 p k)) (k0_pay5 x0 x1 x2 x3 (ix2 p k)) = _
  rw [neg_apply, near_apply]

/-- The weights. -/
theorem weight_apply (p : Fin 128) (k : Fin 8192) :
    k0_pay8 x0 x1 (ix2 p k) = Row.weight (x0 (ix2 p (0 : Fin 1))) (scs x1) k := by
  have hbase : broadcastTo S128x8192 (divf (shapeCast S128x1 (multiReduction .add [1] S128 (k0_pay1 x0 x1) 0x00000000#32
        reduces_S128x8192_S128 (.inl rfl) rfl) shapeCasts_S128_S128x1) (broadcast S128x1 (Scalar.ofBits (F := Ideal) .f32 0x46000000#32)))
        broadcasts_S128x1_S128x8192 (ix2 p k) = Row.base (x0 (ix2 p (0 : Fin 1))) (scs x1) :=
    (Cert.LibColumn.broadcastTo_a1_ab_apply _ _ p k).trans (congrArg (fun s => Ideal.div s Row.width)
      ((colSum_apply _ _ _ _ _ p).trans (Finset.sum_congr rfl fun k' _ => dist_apply x0 x1 p k')))
  unfold k0_pay8 Row.weight
  exact congrArg₂ (fun b d => Ideal.exp (Row.sharp * (b - d))) hbase (dist_apply x0 x1 p k)

/-! ## The stored columns, at row p -/

/-- The number of near positives of row p (before it is made a column). -/
theorem nearCount_apply (p : Fin 128) :
    k0_pay9 x0 x1 x2 x3 (ix1 p)
      = ∑ k : Fin 8192, Scalar.select (Row.posNear (x0 (ix2 p (0 : Fin 1))) (x2 (ix2 p (0 : Fin 1))) (scs x1) (lbs x3) k) Row.one Row.zero := by
  unfold k0_pay9
  refine (rowSum_apply _ _ _ _ p).trans (Finset.sum_congr rfl fun k _ => ?_)
  show Scalar.select (k0_pay6 x0 x1 x2 x3 (ix2 p k)) Row.one Row.zero = _
  rw [posNear_apply]

/-- The loss column. -/
theorem loss_apply (p : Fin 128) :
    k0_pay10 (k0_pay3 x0 x1 x2 x3) (k0_pay6 x0 x1 x2 x3) (k0_pay7 x0 x1 x2 x3) (k0_pay8 x0 x1) (k0_pay9 x0 x1 x2 x3) (ix2 p (0 : Fin 1))
      = Row.loss (x0 (ix2 p (0 : Fin 1))) (x2 (ix2 p (0 : Fin 1))) (scs x1) (lbs x3) := by
  have h41 : shapeCast S128x1 (k0_pay9 x0 x1 x2 x3) shapeCasts_S128_S128x1 (ix2 p (0 : Fin 1))
      = ∑ k : Fin 8192, Scalar.select (Row.posNear (x0 (ix2 p (0 : Fin 1))) (x2 (ix2 p (0 : Fin 1))) (scs x1) (lbs x3) k) Row.one Row.zero :=
    (Cert.LibColumn.shapeCast_a_a1_apply _ _ p (0 : Fin 1)).trans (nearCount_apply x0 x1 x2 x3 p)
  have h47 : shapeCast S128x1 (multiReduction .add [1] S128 (select (k0_pay6 x0 x1 x2 x3) (k0_pay8 x0 x1)
        (broadcast S128x8192 (Scalar.ofBits (F := Ideal) .f32 0x00000000#32))) 0x00000000#32 reduces_S128x8192_S128 (.inl rfl) rfl) shapeCasts_S128_S128x1 (ix2 p (0 : Fin 1))
      = ∑ k : Fin 8192, Scalar.select (Row.posNear (x0 (ix2 p (0 : Fin 1))) (x2 (ix2 p (0 : Fin 1))) (scs x1) (lbs x3) k) (Row.weight (x0 (ix2 p (0 : Fin 1))) (scs x1) k) Row.zero :=
    (maskedSum_apply _ _ _ _ _ _ p).trans (Finset.sum_congr rfl fun k _ => by rw [posNear_apply, weight_apply])
  have h51 : shapeCast S128x1 (multiReduction .add [1] S128 (select (k0_pay3 x0 x1 x2 x3) (k0_pay8 x0 x1)
        (broadcast S128x8192 (Scalar.ofBits (F := Ideal) .f32 0x00000000#32))) 0x00000000#32 reduces_S128x8192_S128 (.inl rfl) rfl) shapeCasts_S128_S128x1 (ix2 p (0 : Fin 1))
      = ∑ k : Fin 8192, Scalar.select (Row.pos (x0 (ix2 p (0 : Fin 1))) (x2 (ix2 p (0 : Fin 1))) (scs x1) (lbs x3) k) (Row.weight (x0 (ix2 p (0 : Fin 1))) (scs x1) k) Row.zero :=
    (maskedSum_apply _ _ _ _ _ _ p).trans (Finset.sum_congr rfl fun k _ => by rw [pos_apply, weight_apply])
  have h56 : shapeCast S128x1 (multiReduction .add [1] S128 (select (k0_pay7 x0 x1 x2 x3) (k0_pay8 x0 x1)
        (broadcast S128x8192 (Scalar.ofBits (F := Ideal) .f32 0x00000000#32))) 0x00000000#32 reduces_S128x8192_S128 (.inl rfl) rfl) shapeCasts_S128_S128x1 (ix2 p (0 : Fin 1))
      = Row.negLogit (x0 (ix2 p (0 : Fin 1))) (x2 (ix2 p (0 : Fin 1))) (scs x1) (lbs x3) :=
    (maskedSum_apply _ _ _ _ _ _ p).trans (Finset.sum_congr rfl fun k _ => by rw [negNear_apply, weight_apply])
  have hP : Scalar.select (Ideal.cmp .ogt (shapeCast S128x1 (k0_pay9 x0 x1 x2 x3) shapeCasts_S128_S128x1 (ix2 p (0 : Fin 1))) Row.zero)
        (shapeCast S128x1 (multiReduction .add [1] S128 (select (k0_pay6 x0 x1 x2 x3) (k0_pay8 x0 x1)
          (broadcast S128x8192 (Scalar.ofBits (F := Ideal) .f32 0x00000000#32))) 0x00000000#32 reduces_S128x8192_S128 (.inl rfl) rfl) shapeCasts_S128_S128x1 (ix2 p (0 : Fin 1)))
        (shapeCast S128x1 (multiReduction .add [1] S128 (select (k0_pay3 x0 x1 x2 x3) (k0_pay8 x0 x1)
          (broadcast S128x8192 (Scalar.ofBits (F := Ideal) .f32 0x00000000#32))) 0x00000000#32 reduces_S128x8192_S128 (.inl rfl) rfl) shapeCasts_S128_S128x1 (ix2 p (0 : Fin 1)))
      = Row.posLogit (x0 (ix2 p (0 : Fin 1))) (x2 (ix2 p (0 : Fin 1))) (scs x1) (lbs x3) := by
    rw [h41, h47, h51]; rfl
  unfold k0_pay10 Row.loss
  exact congrArg₂ (fun P N => Row.zero - Ideal.log (Ideal.div P (P + N))) hP h56

/-- The positives' summed distance and number, and the negatives'. -/
theorem posSum_apply (p : Fin 128) :
    k0_pay11 (k0_pay1 x0 x1) (k0_pay3 x0 x1 x2 x3) (ix2 p (0 : Fin 1))
      = Row.posSum (x0 (ix2 p (0 : Fin 1))) (x2 (ix2 p (0 : Fin 1))) (scs x1) (lbs x3) := by
  unfold k0_pay11
  exact (maskedSum_apply _ _ _ _ _ _ p).trans (Finset.sum_congr rfl fun k _ => by rw [pos_apply, dist_apply])
theorem posCnt_apply (p : Fin 128) :
    k0_pay12 (F := Ideal) (k0_pay3 x0 x1 x2 x3) (ix2 p (0 : Fin 1))
      = Row.posCnt (x0 (ix2 p (0 : Fin 1))) (x2 (ix2 p (0 : Fin 1))) (scs x1) (lbs x3) := by
  unfold k0_pay12
  exact (maskedCount_apply _ _ _ _ _ p).trans (Finset.sum_congr rfl fun k _ => by rw [pos_apply])
theorem negSum_apply (p : Fin 128) :
    k0_pay13 (k0_pay1 x0 x1) (k0_pay4 (F := Ideal) x2 x3) (ix2 p (0 : Fin 1))
      = Row.negSum (x0 (ix2 p (0 : Fin 1))) (x2 (ix2 p (0 : Fin 1))) (scs x1) (lbs x3) := by
  unfold k0_pay13
  exact (maskedSum_apply _ _ _ _ _ _ p).trans (Finset.sum_congr rfl fun k _ => by rw [neg_apply, dist_apply])
theorem negCnt_apply (p : Fin 128) :
    k0_pay14 (F := Ideal) (k0_pay4 (F := Ideal) x2 x3) (ix2 p (0 : Fin 1)) = Row.negCnt (x2 (ix2 p (0 : Fin 1))) (lbs x3) := by
  unfold k0_pay14
  exact (maskedCount_apply _ _ _ _ _ p).trans (Finset.sum_congr rfl fun k _ => by rw [neg_apply])

end Cert.KernelIdeal.RowValue

end
-- ==== Proof.KernelArrays.lean ====
/-
  From blocks to arrays.

  The grid has 64 points.  Point t stages rows 128 t ... 128 t + 127 of the two column-shaped arrays (the scores and the
  labels as 8192 x 1) and the whole of the two row-shaped ones (as 1 x 8192), and writes back rows 128 t ... 128 t + 127 of
  each of the five 8192 x 1 results.  The column- and row-shaped arrays are casts of the two arguments, so row p of point
  t's blocks holds the score and the label of row 128 t + p, and the row-shaped blocks hold all the scores and labels.
  The 64 blocks tile each result; so each result array ends holding, in row r, row r's value of the row specification
  (Row.lean) against all columns.
-/
import proofs.«403971_j50818053046733_3_alg».proof.Proof.Gen.KernelIdeal.Frame
import proofs.«403971_j50818053046733_3_alg».proof.Proof.KernelRow
import Idealize.ShloMosaic.Lib.Pipeline.Value
import Idealize.ShloMosaic.Lib.ValueLayout
import Idealize.ShloMosaic.Lib.Tactic

open scoped BigOperators

noncomputable section

namespace Cert.KernelIdeal.ArrayValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The two arguments on core c: the scores and the labels. -/
abbrev xs (c : Dev nD) : Row.V.Idx → EReal := m ((c : Thread nD τ).loc main_arg0)
abbrev ts (c : Dev nD) : Row.V.Idx → BitVec 32 := m ((c : Thread nD τ).loc main_arg1)

theorem hz : (![0, 0] : Fin 2 → Nat) = fun _ => 0 := funext fun a => by fin_cases a <;> rfl

/-! ## The staged arrays are casts of the arguments -/

theorem colScores (c : Dev nD) : (V m c main_v0 : S8192x1.Idx → EReal) = shapeCast S8192x1 (xs m c) shapeCasts_S8192_S8192x1 := by
  show StableHlo.after hostOps0 (fun b => m (c, b)) (Proc.devRef .tc main_v0) = _
  after_results; rfl
theorem rowScores (c : Dev nD) : (V m c main_v1 : S1x8192.Idx → EReal) = shapeCast S1x8192 (xs m c) shapeCasts_S8192_S1x8192 := by
  show StableHlo.after hostOps0 (fun b => m (c, b)) (Proc.devRef .tc main_v1) = _
  after_results; rfl
theorem colLabels (c : Dev nD) : (V m c main_v2 : S8192x1.Idx → BitVec 32) = shapeCast S8192x1 (ts m c) shapeCasts_S8192_S8192x1 := by
  show StableHlo.after hostOps0 (fun b => m (c, b)) (Proc.devRef .tc main_v2) = _
  after_results; rfl
theorem rowLabels (c : Dev nD) : (V m c main_v3 : S1x8192.Idx → BitVec 32) = shapeCast S1x8192 (ts m c) shapeCasts_S8192_S1x8192 := by
  show StableHlo.after hostOps0 (fun b => m (c, b)) (Proc.devRef .tc main_v3) = _
  after_results; rfl

/-! ## The grid's index maps, decided once -/

/-- The row-blocked windows are at block (t, 0) at point t, the whole-row windows at block (0, 0). -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Row p of point t's blocks is row 128 t + p of the arrays. -/
def rowAt (t : Fin cfg0.N) (p : Fin 128) : Fin 8192 :=
  ⟨t.val * 128 + p.val, by have := t.isLt; have h : cfg0.N = 64 := N_0; have := p.isLt; omega⟩

/-! ## The input blocks -/

/-- The four input blocks at point t, at their literal shapes. -/
abbrev xblk (c : Dev nD) (t : Fin cfg0.N) : Vec Ideal S128x1 .f32 := iblk m c 0 t
abbrev xrow (c : Dev nD) (t : Fin cfg0.N) : Vec Ideal S1x8192 .f32 := iblk m c 1 t
abbrev tblk (c : Dev nD) (t : Fin cfg0.N) : Vec Ideal S128x1 .i32 := iblk m c 2 t
abbrev trow (c : Dev nD) (t : Fin cfg0.N) : Vec Ideal S1x8192 .i32 := iblk m c 3 t

theorem xblk_apply (c : Dev nD) (t : Fin cfg0.N) (p : Fin 128) (u : Fin 1) :
    xblk m c t (ix2 p u) = xs m c (ix1 (rowAt t p)) := by
  obtain ⟨⟨e0, e1⟩, -⟩ := idx_facts t
  show ((cfg0.win 0).blk t).view.read (Elt Ideal) (V m c (Pipeline.arrRef spec0 0)) (ix2 p u) = _
  rw [View.read_apply]
  show (V m c main_v0 : S8192x1.Idx → EReal) (((cfg0.win 0).blk t).view.emb (ix2 p u)) = _
  have he : ((cfg0.win 0).blk t).view.emb (ix2 p u) = ix2 (rowAt t p) (0 : Fin 1) := by
    funext a; apply Fin.ext
    match a with
    | ⟨0, _⟩ => show win0_0.index t (0 : Fin 2) * 128 + 1 * p.val = t.val * 128 + p.val; rw [e0]; omega
    | ⟨1, _⟩ => show win0_0.index t (1 : Fin 2) * 1 + 1 * u.val = 0; rw [e1]; have := u.isLt; omega
  rw [he, colScores]
  exact Cert.LibColumn.shapeCast_a_a1_apply _ _ _ _

theorem tblk_apply (c : Dev nD) (t : Fin cfg0.N) (p : Fin 128) (u : Fin 1) :
    tblk m c t (ix2 p u) = ts m c (ix1 (rowAt t p)) := by
  obtain ⟨-, -, ⟨e0, e1⟩, -⟩ := idx_facts t
  show ((cfg0.win 2).blk t).view.read (Elt Ideal) (V m c (Pipeline.arrRef spec0 2)) (ix2 p u) = _
  rw [View.read_apply]
  show (V m c main_v2 : S8192x1.Idx → BitVec 32) (((cfg0.win 2).blk t).view.emb (ix2 p u)) = _
  have he : ((cfg0.win 2).blk t).view.emb (ix2 p u) = ix2 (rowAt t p) (0 : Fin 1) := by
    funext a; apply Fin.ext
    match a with
    | ⟨0, _⟩ => show win0_2.index t (0 : Fin 2) * 128 + 1 * p.val = t.val * 128 + p.val; rw [e0]; omega
    | ⟨1, _⟩ => show win0_2.index t (1 : Fin 2) * 1 + 1 * u.val = 0; rw [e1]; have := u.isLt; omega
  rw [he, colLabels]
  exact Cert.LibColumn.shapeCast_a_a1_apply _ _ _ _

theorem xrow_apply (c : Dev nD) (t : Fin cfg0.N) (k : Fin 8192) :
    xrow m c t (ix2 (0 : Fin 1) k) = xs m c (ix1 k) := by
  obtain ⟨-, ⟨e0, e1⟩, -⟩ := idx_facts t
  show ((cfg0.win 1).blk t).view.read (Elt Ideal) (V m c (Pipeline.arrRef spec0 1)) (ix2 (0 : Fin 1) k) = _
  rw [View.read_apply]
  show (V m c main_v1 : S1x8192.Idx → EReal) (((cfg0.win 1).blk t).view.emb (ix2 (0 : Fin 1) k)) = _
  have he : ((cfg0.win 1).blk t).view.emb (ix2 (0 : Fin 1) k) = ix2 (0 : Fin 1) k := by
    funext a; apply Fin.ext
    match a with
    | ⟨0, _⟩ => show win0_1.index t (0 : Fin 2) * 1 + 1 * 0 = 0; rw [e0]
    | ⟨1, _⟩ => show win0_1.index t (1 : Fin 2) * 8192 + 1 * k.val = k.val; rw [e1]; omega
  rw [he, rowScores]
  exact shapeCast_a_1a_apply _ _ _ _

theorem trow_apply (c : Dev nD) (t : Fin cfg0.N) (k : Fin 8192) :
    trow m c t (ix2 (0 : Fin 1) k) = ts m c (ix1 k) := by
  obtain ⟨-, -, -, ⟨e0, e1⟩, -⟩ := idx_facts t
  show ((cfg0.win 3).blk t).view.read (Elt Ideal) (V m c (Pipeline.arrRef spec0 3)) (ix2 (0 : Fin 1) k) = _
  rw [View.read_apply]
  show (V m c main_v3 : S1x8192.Idx → BitVec 32) (((cfg0.win 3).blk t).view.emb (ix2 (0 : Fin 1) k)) = _
  have he : ((cfg0.win 3).blk t).view.emb (ix2 (0 : Fin 1) k) = ix2 (0 : Fin 1) k := by
    funext a; apply Fin.ext
    match a with
    | ⟨0, _⟩ => show win0_3.index t (0 : Fin 2) * 1 + 1 * 0 = 0; rw [e0]
    | ⟨1, _⟩ => show win0_3.index t (1 : Fin 2) * 8192 + 1 * k.val = k.val; rw [e1]; omega
  rw [he, rowLabels]
  exact shapeCast_a_1a_apply _ _ _ _

/-- The row-shaped blocks are all the scores and all the labels. -/
theorem xrow_eq (c : Dev nD) (t : Fin cfg0.N) : RowValue.scs (xrow m c t) = Row.col (xs m c) := funext fun k => xrow_apply m c t k
theorem trow_eq (c : Dev nD) (t : Fin cfg0.N) : RowValue.lbs (trow m c t) = Row.col (ts m c) := funext fun k => trow_apply m c t k

/-- Two 128 x 1 columns agree when they agree row by row. -/
theorem col_ext {α : Type} (f g : S128x1.Idx → α) (h : ∀ p : Fin 128, f (ix2 p (0 : Fin 1)) = g (ix2 p (0 : Fin 1))) : f = g :=
  funext fun y => by
    obtain ⟨p, u, rfl⟩ : ∃ (p : Fin 128) (u : Fin 1), y = ix2 p u := ⟨y 0, y 1, eq_ix2 y⟩
    obtain rfl : u = 0 := Subsingleton.elim _ _
    exact h p

/-- A row of an 8192 x 1 array lies in point (row / 128)'s block: the arithmetic of the cover. -/
theorem cover_arith (i0 i1 : ℕ) (h0 : i0 < 8192) (h1 : i1 < 1) :
    (i0 / 128 * 128 ≤ i0 ∧ i0 < i0 / 128 * 128 + 128) ∧ (0 * 1 ≤ i1 ∧ i1 < 0 * 1 + 1) := by omega

/-! ## A result array, row by row -/

/-- The 8192 x 1 array whose row r holds f r. -/
def rowArr (f : Fin 8192 → EReal) : S8192x1.Idx → EReal := fun i => f ⟨(i 0).val, idx2_lt0 i⟩

/-- Entry j of such an array, when j's row is row p of the block whose row index is a0 = t: it is f at row 128 t + p. -/
theorem rowArr_block (f : Fin 8192 → EReal) (j : S8192x1.Idx) (t : Fin cfg0.N) (p : Fin 128) (a0 : ℕ) (e0 : a0 = t.val)
    (hj : (j 0).val = a0 * 128 + 1 * p.val) : rowArr f j = f (rowAt t p) := by
  unfold rowArr
  exact congrArg f (Fin.ext (by show (j 0).val = t.val * 128 + p.val; rw [hj, e0]; omega))

/-- The point whose block holds row (i 0): row / 128. -/
def pointOf (i : S8192x1.Idx) : Fin cfg0.N :=
  ⟨(i 0).val / 128, by have := idx2_lt0 i; have h : cfg0.N = 64 := N_0; omega⟩

/-- Row (i 0) lies in the block of rows 128 a0 ... 128 a0 + 127 and of the one column, when a0 is the row divided by 128. -/
theorem in_block (i : S8192x1.Idx) (t : Fin cfg0.N) (ht : t.val = (i 0).val / 128) (a0 a1 : ℕ) (e0 : a0 = t.val) (e1 : a1 = 0) :
    (a0 * 128 ≤ (i 0).val ∧ (i 0).val < a0 * 128 + 128) ∧ (a1 * 1 ≤ (i 1).val ∧ (i 1).val < a1 * 1 + 1) := by
  have h0 := idx2_lt0 i
  have h1 := idx2_lt1 i
  subst e0 e1
  omega

/-- What the four input blocks hold at row p of point t: row 128 t + p's score and label, and all the scores and labels. -/
theorem lossRow (c : Dev nD) (t : Fin cfg0.N) (p : Fin 128) :
    Row.loss (xblk m c t (ix2 p (0 : Fin 1))) (tblk m c t (ix2 p (0 : Fin 1))) (RowValue.scs (xrow m c t)) (RowValue.lbs (trow m c t))
      = Row.lossAt (xs m c) (ts m c) (rowAt t p) := by
  unfold Row.lossAt; rw [xblk_apply, tblk_apply, xrow_eq, trow_eq]
theorem posSumRow (c : Dev nD) (t : Fin cfg0.N) (p : Fin 128) :
    Row.posSum (xblk m c t (ix2 p (0 : Fin 1))) (tblk m c t (ix2 p (0 : Fin 1))) (RowValue.scs (xrow m c t)) (RowValue.lbs (trow m c t))
      = Row.posSumAt (xs m c) (ts m c) (rowAt t p) := by
  unfold Row.posSumAt; rw [xblk_apply, tblk_apply, xrow_eq, trow_eq]
theorem posCntRow (c : Dev nD) (t : Fin cfg0.N) (p : Fin 128) :
    Row.posCnt (xblk m c t (ix2 p (0 : Fin 1))) (tblk m c t (ix2 p (0 : Fin 1))) (RowValue.scs (xrow m c t)) (RowValue.lbs (trow m c t))
      = Row.posCntAt (xs m c) (ts m c) (rowAt t p) := by
  unfold Row.posCntAt; rw [xblk_apply, tblk_apply, xrow_eq, trow_eq]
theorem negSumRow (c : Dev nD) (t : Fin cfg0.N) (p : Fin 128) :
    Row.negSum (xblk m c t (ix2 p (0 : Fin 1))) (tblk m c t (ix2 p (0 : Fin 1))) (RowValue.scs (xrow m c t)) (RowValue.lbs (trow m c t))
      = Row.negSumAt (xs m c) (ts m c) (rowAt t p) := by
  unfold Row.negSumAt; rw [xblk_apply, tblk_apply, xrow_eq, trow_eq]
theorem negCntRow (c : Dev nD) (t : Fin cfg0.N) (p : Fin 128) :
    Row.negCnt (tblk m c t (ix2 p (0 : Fin 1))) (RowValue.lbs (trow m c t)) = Row.negCntAt (ts m c) (rowAt t p) := by
  unfold Row.negCntAt; rw [tblk_apply, trow_eq]

/-! ## The loss (result window 4) -/

theorem flushed4_eq (c : Dev nD) (t : Fin cfg0.N) :
    (dats m 0 c).flushed 4 t = ((cfg0.win 4).blk t).view.read (Elt Ideal) (rowArr (Row.lossAt (xs m c) (ts m c))) := by
  obtain ⟨-, -, -, -, ⟨e0, -⟩, -⟩ := idx_facts t
  show (cfg0.win 4).cut (grid0.coords t) ((dats m 0 c).after 4 t) = _
  rw [after0_4]; unfold out0_4
  rw [View.canon_unit_zero hz]
  simp only [View.ld_unit_zero (S := S128x1) hz, View.ld_unit_zero (S := S1x8192) hz]
  refine col_ext _ _ fun p => ?_
  rw [View.read_apply]
  refine (((RowValue.loss_apply (xblk m c t) (xrow m c t) (tblk m c t) (trow m c t) p).trans (lossRow m c t p)).trans ?_).trans (cast_eq _ _).symm
  exact (rowArr_block _ _ t p _ e0 rfl).symm

theorem mem_blk4 (i : S8192x1.Idx) (t : Fin cfg0.N) (ht : t.val = (i 0).val / 128) : i ∈ ((cfg0.win 4).blk t).view.set := by
  obtain ⟨-, -, -, -, ⟨e0, e1⟩, -⟩ := idx_facts t
  show i ∈ ((View.whole main_v4_0).slice (win0_4.rect t)).set
  rw [View.set_slice_whole, Rect.mem_set_unit]
  intro a
  match a with
  | ⟨0, _⟩ => exact (in_block i t ht _ _ e0 e1).1
  | ⟨1, _⟩ => exact (in_block i t ht _ _ e0 e1).2

theorem final4 (c : Dev nD) : (dats m 0 c).arrAt 4 cfg0.N = rowArr (Row.lossAt (xs m c) (ts m c)) :=
  (dats m 0 c).arrAt_eq_of_cover 4 _ (fun t _ => flushed4_eq m c t) fun i => ⟨pointOf i, flush0_4 _, mem_blk4 i _ rfl⟩

/-! ## The positives' summed distance (result window 5) -/

theorem flushed5_eq (c : Dev nD) (t : Fin cfg0.N) :
    (dats m 0 c).flushed 5 t = ((cfg0.win 5).blk t).view.read (Elt Ideal) (rowArr (Row.posSumAt (xs m c) (ts m c))) := by
  obtain ⟨-, -, -, -, -, ⟨e0, -⟩, -⟩ := idx_facts t
  show (cfg0.win 5).cut (grid0.coords t) ((dats m 0 c).after 5 t) = _
  rw [after0_5]; unfold out0_5
  rw [View.canon_unit_zero hz]
  simp only [View.ld_unit_zero (S := S128x1) hz, View.ld_unit_zero (S := S1x8192) hz]
  refine col_ext _ _ fun p => ?_
  rw [View.read_apply]
  refine (((RowValue.posSum_apply (xblk m c t) (xrow m c t) (tblk m c t) (trow m c t) p).trans (posSumRow m c t p)).trans ?_).trans (cast_eq _ _).symm
  exact (rowArr_block _ _ t p _ e0 rfl).symm

theorem mem_blk5 (i : S8192x1.Idx) (t : Fin cfg0.N) (ht : t.val = (i 0).val / 128) : i ∈ ((cfg0.win 5).blk t).view.set := by
  obtain ⟨-, -, -, -, -, ⟨e0, e1⟩, -⟩ := idx_facts t
  show i ∈ ((View.whole main_v4_1).slice (win0_5.rect t)).set
  rw [View.set_slice_whole, Rect.mem_set_unit]
  intro a
  match a with
  | ⟨0, _⟩ => exact (in_block i t ht _ _ e0 e1).1
  | ⟨1, _⟩ => exact (in_block i t ht _ _ e0 e1).2

theorem final5 (c : Dev nD) : (dats m 0 c).arrAt 5 cfg0.N = rowArr (Row.posSumAt (xs m c) (ts m c)) :=
  (dats m 0 c).arrAt_eq_of_cover 5 _ (fun t _ => flushed5_eq m c t) fun i => ⟨pointOf i, flush0_5 _, mem_blk5 i _ rfl⟩

/-! ## The positives' number (result window 6) -/

theorem flushed6_eq (c : Dev nD) (t : Fin cfg0.N) :
    (dats m 0 c).flushed 6 t = ((cfg0.win 6).blk t).view.read (Elt Ideal) (rowArr (Row.posCntAt (xs m c) (ts m c))) := by
  obtain ⟨-, -, -, -, -, -, ⟨e0, -⟩, -⟩ := idx_facts t
  show (cfg0.win 6).cut (grid0.coords t) ((dats m 0 c).after 6 t) = _
  rw [after0_6]; unfold out0_6
  rw [View.canon_unit_zero hz]
  simp only [View.ld_unit_zero (S := S128x1) hz, View.ld_unit_zero (S := S1x8192) hz]
  refine col_ext _ _ fun p => ?_
  rw [View.read_apply]
  refine (((RowValue.posCnt_apply (xblk m c t) (xrow m c t) (tblk m c t) (trow m c t) p).trans (posCntRow m c t p)).trans ?_).trans (cast_eq _ _).symm
  exact (rowArr_block _ _ t p _ e0 rfl).symm

theorem mem_blk6 (i : S8192x1.Idx) (t : Fin cfg0.N) (ht : t.val = (i 0).val / 128) : i ∈ ((cfg0.win 6).blk t).view.set := by
  obtain ⟨-, -, -, -, -, -, ⟨e0, e1⟩, -⟩ := idx_facts t
  show i ∈ ((View.whole main_v4_2).slice (win0_6.rect t)).set
  rw [View.set_slice_whole, Rect.mem_set_unit]
  intro a
  match a with
  | ⟨0, _⟩ => exact (in_block i t ht _ _ e0 e1).1
  | ⟨1, _⟩ => exact (in_block i t ht _ _ e0 e1).2

theorem final6 (c : Dev nD) : (dats m 0 c).arrAt 6 cfg0.N = rowArr (Row.posCntAt (xs m c) (ts m c)) :=
  (dats m 0 c).arrAt_eq_of_cover 6 _ (fun t _ => flushed6_eq m c t) fun i => ⟨pointOf i, flush0_6 _, mem_blk6 i _ rfl⟩

/-! ## The negatives' summed distance (result window 7) -/

theorem flushed7_eq (c : Dev nD) (t : Fin cfg0.N) :
    (dats m 0 c).flushed 7 t = ((cfg0.win 7).blk t).view.read (Elt Ideal) (rowArr (Row.negSumAt (xs m c) (ts m c))) := by
  obtain ⟨-, -, -, -, -, -, -, ⟨e0, -⟩, -⟩ := idx_facts t
  show (cfg0.win 7).cut (grid0.coords t) ((dats m 0 c).after 7 t) = _
  rw [after0_7]; unfold out0_7
  rw [View.canon_unit_zero hz]
  simp only [View.ld_unit_zero (S := S128x1) hz, View.ld_unit_zero (S := S1x8192) hz]
  refine col_ext _ _ fun p => ?_
  rw [View.read_apply]
  refine (((RowValue.negSum_apply (xblk m c t) (xrow m c t) (tblk m c t) (trow m c t) p).trans (negSumRow m c t p)).trans ?_).trans (cast_eq _ _).symm
  exact (rowArr_block _ _ t p _ e0 rfl).symm

theorem mem_blk7 (i : S8192x1.Idx) (t : Fin cfg0.N) (ht : t.val = (i 0).val / 128) : i ∈ ((cfg0.win 7).blk t).view.set := by
  obtain ⟨-, -, -, -, -, -, -, ⟨e0, e1⟩, -⟩ := idx_facts t
  show i ∈ ((View.whole main_v4_3).slice (win0_7.rect t)).set
  rw [View.set_slice_whole, Rect.mem_set_unit]
  intro a
  match a with
  | ⟨0, _⟩ => exact (in_block i t ht _ _ e0 e1).1
  | ⟨1, _⟩ => exact (in_block i t ht _ _ e0 e1).2

theorem final7 (c : Dev nD) : (dats m 0 c).arrAt 7 cfg0.N = rowArr (Row.negSumAt (xs m c) (ts m c)) :=
  (dats m 0 c).arrAt_eq_of_cover 7 _ (fun t _ => flushed7_eq m c t) fun i => ⟨pointOf i, flush0_7 _, mem_blk7 i _ rfl⟩

/-! ## The negatives' number (result window 8): it reads the labels only -/

theorem flushed8_eq (c : Dev nD) (t : Fin cfg0.N) :
    (dats m 0 c).flushed 8 t = ((cfg0.win 8).blk t).view.read (Elt Ideal) (rowArr (Row.negCntAt (ts m c))) := by
  obtain ⟨-, -, -, -, -, -, -, -, e0, -⟩ := idx_facts t
  show (cfg0.win 8).cut (grid0.coords t) ((dats m 0 c).after 8 t) = _
  rw [after0_8]; unfold out0_8
  rw [View.canon_unit_zero hz]
  simp only [View.ld_unit_zero (S := S128x1) hz, View.ld_unit_zero (S := S1x8192) hz]
  refine col_ext _ _ fun p => ?_
  rw [View.read_apply]
  refine (((RowValue.negCnt_apply (tblk m c t) (trow m c t) p).trans (negCntRow m c t p)).trans ?_).trans (cast_eq _ _).symm
  exact (rowArr_block _ _ t p _ e0 rfl).symm

theorem mem_blk8 (i : S8192x1.Idx) (t : Fin cfg0.N) (ht : t.val = (i 0).val / 128) : i ∈ ((cfg0.win 8).blk t).view.set := by
  obtain ⟨-, -, -, -, -, -, -, -, e0, e1⟩ := idx_facts t
  show i ∈ ((View.whole main_v4_4).slice (win0_8.rect t)).set
  rw [View.set_slice_whole, Rect.mem_set_unit]
  intro a
  match a with
  | ⟨0, _⟩ => exact (in_block i t ht _ _ e0 e1).1
  | ⟨1, _⟩ => exact (in_block i t ht _ _ e0 e1).2

theorem final8 (c : Dev nD) : (dats m 0 c).arrAt 8 cfg0.N = rowArr (Row.negCntAt (ts m c)) :=
  (dats m 0 c).arrAt_eq_of_cover 8 _ (fun t _ => flushed8_eq m c t) fun i => ⟨pointOf i, flush0_8 _, mem_blk8 i _ rfl⟩

end Cert.KernelIdeal.ArrayValue

end
-- ==== Proof.LibColumnDrop.lean ====
/-
  The keepdims column of a vector, undone: an a x 1 column cast back to a length-a vector reads, at i, the column's row i.
  (The converse, a vector cast to a column, and a column broadcast across b columns, are the column forms this complements;
  the row form, 1 x a cast to a, is in the library.)  Also a length-1 vector cast to a scalar.
-/
import Idealize.ShloMosaic.Lib.Pipeline.Value
import Idealize.ShloMosaic.Lib.ValueIdx

namespace Cert.LibColumnDrop

open Idealize.ShloMosaic Idealize.ShloMosaic.ValueIdx

variable {α : Type}

/-- An a x 1 column cast to a length-a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A length-1 vector cast to a scalar reads its one entry. -/
theorem shapeCast_1_scalar_apply (x : (⟨1, ![1]⟩ : Shape).Idx → α) (h : (⟨1, ![1]⟩ : Shape).ShapeCasts ⟨0, ![]⟩)
    (j : (⟨0, ![]⟩ : Shape).Idx) : shapeCast ⟨0, ![]⟩ x h j = x (ix1 (0 : Fin 1)) :=
  shapeCast_apply x h _ _ (by
    rw [Shape.rowMajor_val_one]
    have hlt := ((⟨0, ![]⟩ : Shape).rowMajor j).isLt
    have hn : (⟨0, ![]⟩ : Shape).numel = 1 := by decide
    have hlt' : ((⟨0, ![]⟩ : Shape).rowMajor j).val < 1 := lt_of_lt_of_eq hlt hn
    show (0 : ℕ) = _
    omega)

end Cert.LibColumnDrop
-- ==== Proof.KernelTail.lean ====
/-
  The kernel's four results.

  After the region the five result arrays are 8192 x 1 columns whose row r holds row r's loss and its four statistics.  The
  program then drops the unit axis of each and takes: the mean of the losses (their sum from zero, divided by 8192); the
  fraction of losses below the cut (each comparison's bit as a number, summed from zero, divided by 8192); and the last row's
  summed positive distance divided by its number of positives, and likewise for its negatives.  These are the four results
  of the row specification (Row.lean), read off the arrays.
-/
import proofs.«403971_j50818053046733_3_alg».proof.Proof.Gen.KernelIdeal.Frame
import proofs.«403971_j50818053046733_3_alg».proof.Proof.KernelArrays
import proofs.«403971_j50818053046733_3_alg».proof.Proof.LibColumnDrop
import Idealize.ShloMosaic.Lib.IdealHost
import Idealize.ShloMosaic.Lib.Tactic

open scoped BigOperators

noncomputable section

namespace Cert.KernelIdeal.TailValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.ArrayValue

variable (m : (ℓ : Loc nD τ sig) → Buf (Elt Ideal) ℓ) (ρ : Dev nD → PrngReg)

/-! ## The arrays as the lines after the region find them -/

theorem arr4 (c : Dev nD) :
    Pipeline.withArrays (cfgs 0).spec c (V0 m c) (fun w => (dats m 0 c).arrAt w (cfgs 0).N) (Proc.tc.devRef main_v4_0)
      = rowArr (Row.lossAt (xs m c) (ts m c)) :=
  (Pipeline.withArrays_arr spec0 launch0.win.arr_inj c _ _ 4).trans (final4 m c)
theorem arr5 (c : Dev nD) :
    Pipeline.withArrays (cfgs 0).spec c (V0 m c) (fun w => (dats m 0 c).arrAt w (cfgs 0).N) (Proc.tc.devRef main_v4_1)
      = rowArr (Row.posSumAt (xs m c) (ts m c)) :=
  (Pipeline.withArrays_arr spec0 launch0.win.arr_inj c _ _ 5).trans (final5 m c)
theorem arr6 (c : Dev nD) :
    Pipeline.withArrays (cfgs 0).spec c (V0 m c) (fun w => (dats m 0 c).arrAt w (cfgs 0).N) (Proc.tc.devRef main_v4_2)
      = rowArr (Row.posCntAt (xs m c) (ts m c)) :=
  (Pipeline.withArrays_arr spec0 launch0.win.arr_inj c _ _ 6).trans (final6 m c)
theorem arr7 (c : Dev nD) :
    Pipeline.withArrays (cfgs 0).spec c (V0 m c) (fun w => (dats m 0 c).arrAt w (cfgs 0).N) (Proc.tc.devRef main_v4_3)
      = rowArr (Row.negSumAt (xs m c) (ts m c)) :=
  (Pipeline.withArrays_arr spec0 launch0.win.arr_inj c _ _ 7).trans (final7 m c)
theorem arr8 (c : Dev nD) :
    Pipeline.withArrays (cfgs 0).spec c (V0 m c) (fun w => (dats m 0 c).arrAt w (cfgs 0).N) (Proc.tc.devRef main_v4_4)
      = rowArr (Row.negCntAt (ts m c)) :=
  (Pipeline.withArrays_arr spec0 launch0.win.arr_inj c _ _ 8).trans (final8 m c)

/-- A result column with its unit axis dropped reads, at i, the row function at i. -/
theorem squeeze_rowArr (f : Fin 8192 → EReal) (h : S8192x1.ShapeCasts S8192) (i : S8192.Idx) :
    shapeCast S8192 (rowArr f) h i = f (i 0) := by
  obtain ⟨r, rfl⟩ : ∃ r : Fin 8192, i = ix1 r := ⟨i 0, eq_ix1 i⟩
  exact Cert.LibColumnDrop.shapeCast_a1_a_apply (rowArr f) h r

/-- The last row of such a column, taken by a slice and made a scalar. -/
theorem lastRow_rowArr (f : Fin 8192 → EReal) (h : S8192x1.ShapeCasts S8192) (hs : S8192.Slices ![8191] S1) (hc : S1.ShapeCasts S_)
    (j : S_.Idx) :
    shapeCast S_ (extractStridedSlice S1 ![8191] (shapeCast S8192 (rowArr f) h) hs) hc j = f Row.last := by
  rw [Cert.LibColumnDrop.shapeCast_1_scalar_apply,
    extractStridedSlice_apply ![8191] _ hs (ix1 (0 : Fin 1)) (ix1 Row.last) (fun a => by match a with | ⟨0, _⟩ => rfl)]
  exact squeeze_rowArr f h (ix1 Row.last)

/-! ## The four results -/

theorem meanLoss_eq (c : Dev nD) :
    Pipeline.afterTail₀ cfgs (dats m) 0 (V0 m) [hostOps1] c main_v11 = fun _ => Row.meanLoss (xs m c) (ts m c) := by
  unfold Pipeline.afterTail₀
  show StableHlo.after hostOps1 _ (Proc.devRef .tc main_v11) = _
  after_results
  rw [arr4]
  funext j
  rw [hostDivf_apply, hostReduceAdd_apply, Ideal.hostReduceAdd_total _ (fun b => b.elim0)]
  unfold Row.meanLoss
  refine congrArg₂ Ideal.div (congrArg₂ (· + ·) rfl (Finset.sum_congr rfl fun i _ => ?_)) rfl
  exact squeeze_rowArr _ _ i

/-- "Loss below the cut", as a number, at row i: the comparison's bit read as 0 or 1. -/
theorem below_apply (f : Fin 8192 → EReal) (h : S8192x1.ShapeCasts S8192) (hb : S_.BroadcastsInDim S8192 (![] : Fin 0 → Fin S8192.rank))
    (i : S8192.Idx) :
    (uitofp .f32 (cmpf .olt (shapeCast S8192 (rowArr f) h) (broadcastInDim S8192 ![] hb (constant (F := Ideal) S_ .f32 0x3F19999A#32)))
        : FVec Ideal S8192 .f32) i
      = ((((Ideal.cmp .olt (f (i 0)) Row.cut).toNat : ℕ) : ℝ) : EReal) := by
  show ((((cmpf .olt (shapeCast S8192 (rowArr f) h) (broadcastInDim S8192 ![] hb (constant (F := Ideal) S_ .f32 0x3F19999A#32)) i).toNat : ℕ) : ℝ) : EReal) = _
  rw [cmpf_apply, Ideal.cmpf_def, squeeze_rowArr, broadcastInDim_scalar_apply, constant_apply]

theorem fracBelow_eq (c : Dev nD) :
    Pipeline.afterTail₀ cfgs (dats m) 0 (V0 m) [hostOps1] c main_v16 = fun _ => Row.fracBelow (xs m c) (ts m c) := by
  unfold Pipeline.afterTail₀
  show StableHlo.after hostOps1 _ (Proc.devRef .tc main_v16) = _
  after_results
  rw [arr4]
  funext j
  rw [hostDivf_apply, hostReduceAdd_apply, Ideal.hostReduceAdd_total _ (fun b => b.elim0)]
  unfold Row.fracBelow
  refine congrArg₂ Ideal.div (congrArg₂ (· + ·) rfl (Finset.sum_congr rfl fun i _ => ?_)) rfl
  exact below_apply _ _ _ i

theorem meanPos_eq (c : Dev nD) :
    Pipeline.afterTail₀ cfgs (dats m) 0 (V0 m) [hostOps1] c main_v21 = fun _ => Row.meanPos (xs m c) (ts m c) := by
  unfold Pipeline.afterTail₀
  show StableHlo.after hostOps1 _ (Proc.devRef .tc main_v21) = _
  after_results
  rw [arr5, arr6]
  funext j
  rw [hostDivf_apply]
  unfold Row.meanPos
  exact congrArg₂ Ideal.div (lastRow_rowArr _ _ _ _ j) (lastRow_rowArr _ _ _ _ j)

set_option maxHeartbeats 1000000 in
theorem meanNeg_eq (c : Dev nD) :
    Pipeline.afterTail₀ cfgs (dats m) 0 (V0 m) [hostOps1] c main_v26 = fun _ => Row.meanNeg (xs m c) (ts m c) := by
  unfold Pipeline.afterTail₀
  show StableHlo.after hostOps1 _ (Proc.devRef .tc main_v26) = _
  after_results
  rw [arr7, arr8]
  funext j
  rw [hostDivf_apply]
  unfold Row.meanNeg
  exact congrArg₂ Ideal.div (lastRow_rowArr _ _ _ _ j) (lastRow_rowArr _ _ _ _ j)

/-! ## The run, with its four results -/

/-- Every weakly fair execution of the kernel's program ends with the four results at the row specification's, the
    arguments unchanged. -/
theorem run : θ_run defs (onTc (τ := τ) (main (F := Ideal))) ⟨m, fun _ => 0, ρ⟩ fun r => ∀ c : Dev nD,
      r.2.mem ((c.tc : Thread nD τ).loc main_v11) = (fun _ => Row.meanLoss (xs m c) (ts m c))
      ∧ r.2.mem ((c.tc : Thread nD τ).loc main_v16) = (fun _ => Row.fracBelow (xs m c) (ts m c))
      ∧ r.2.mem ((c.tc : Thread nD τ).loc main_v21) = (fun _ => Row.meanPos (xs m c) (ts m c))
      ∧ r.2.mem ((c.tc : Thread nD τ).loc main_v26) = (fun _ => Row.meanNeg (xs m c) (ts m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v11 (Pipeline.mem_restRefs_of main_v11 (by decide) (by decide))).trans (meanLoss_eq m c),
     ((h c).2 main_v16 (Pipeline.mem_restRefs_of main_v16 (by decide) (by decide))).trans (fracBelow_eq m c),
     ((h c).2 main_v21 (Pipeline.mem_restRefs_of main_v21 (by decide) (by decide))).trans (meanPos_eq m c),
     ((h c).2 main_v26 (Pipeline.mem_restRefs_of main_v26 (by decide) (by decide))).trans (meanNeg_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.TailValue

end
-- ==== Proof.RefRunClose.lean ====
/-
  The reference's run, with its four results named by their stages.

  The reference is a straight line of host operations; every weakly fair execution of it ends with each buffer at the value
  its operation computes from the buffers written before it.  Composed down to the two arguments, the four result buffers
  hold the last stages of the chain of stages (the mean loss, the fraction below the cut, the two last-row means).

  Six operations of the line are calls of small functions (a scalar spread to an array and a select); a value inside such a
  function is held at its buffer through a typed reference, which moves contents between the value's type and the buffer's
  own type by a cast.  At every buffer involved the two types are the same, so each cast is the identity: the table below
  says so buffer by buffer.  The casts are taken out of the operations first, and only then is the line composed; the
  composed term is then literally the stage it is compared with.
-/
import proofs.«403971_j50818053046733_3_alg».proof.Proof.RefRead
import Idealize.ShloMosaic.Lib.StableHlo.Run

noncomputable section

namespace Cert.ReferenceIdeal.RunValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-! ## The typed references' casts are the identity, buffer by buffer -/

section Casts
variable {F : FTy → Type} [FloatOps F]

theorem to_call0_v0 (h1 h2 h3) (v : (⟨S_, .f32⟩ : BufTy).Contents (Elt F)) : (TRef.of main_call0_v0 h1 h2 h3).toBuf v = v := rfl
theorem of_call0_v0 (h1 h2 h3) (v : (⟨S_, .f32⟩ : BufTy).Contents (Elt F)) : (TRef.of main_call0_v0 h1 h2 h3).ofBuf v = v := rfl
theorem to_call0_v1 (h1 h2 h3) (v : (⟨S8192x8192, .f32⟩ : BufTy).Contents (Elt F)) : (TRef.of main_call0_v1 h1 h2 h3).toBuf v = v := rfl
theorem of_call0_v1 (h1 h2 h3) (v : (⟨S8192x8192, .f32⟩ : BufTy).Contents (Elt F)) : (TRef.of main_call0_v1 h1 h2 h3).ofBuf v = v := rfl
theorem to_v16 (h1 h2 h3) (v : (⟨S8192x8192, .f32⟩ : BufTy).Contents (Elt F)) : (TRef.of main_v16 h1 h2 h3).toBuf v = v := rfl
theorem of_v15 (h1 h2 h3) (v : (⟨S8192x8192, .i1⟩ : BufTy).Contents (Elt F)) : (TRef.of main_v15 h1 h2 h3).ofBuf v = v := rfl
theorem of_v5 (h1 h2 h3) (v : (⟨S8192x8192, .f32⟩ : BufTy).Contents (Elt F)) : (TRef.of main_v5 h1 h2 h3).ofBuf v = v := rfl
theorem of_cst_0 (h1 h2 h3) (v : (⟨S_, .f32⟩ : BufTy).Contents (Elt F)) : (TRef.of main_cst_0 h1 h2 h3).ofBuf v = v := rfl
theorem to_call1_v0 (h1 h2 h3) (v : (⟨S8192x8192, .i1⟩ : BufTy).Contents (Elt F)) : (TRef.of main_call1_v0 h1 h2 h3).toBuf v = v := rfl
theorem of_call1_v0 (h1 h2 h3) (v : (⟨S8192x8192, .i1⟩ : BufTy).Contents (Elt F)) : (TRef.of main_call1_v0 h1 h2 h3).ofBuf v = v := rfl
theorem to_v24 (h1 h2 h3) (v : (⟨S8192x8192, .i1⟩ : BufTy).Contents (Elt F)) : (TRef.of main_v24 h1 h2 h3).toBuf v = v := rfl
theorem of_v24 (h1 h2 h3) (v : (⟨S8192x8192, .i1⟩ : BufTy).Contents (Elt F)) : (TRef.of main_v24 h1 h2 h3).ofBuf v = v := rfl
theorem of_v23 (h1 h2 h3) (v : (⟨S8192x1, .i1⟩ : BufTy).Contents (Elt F)) : (TRef.of main_v23 h1 h2 h3).ofBuf v = v := rfl
theorem of_v21 (h1 h2 h3) (v : (⟨S8192x8192, .i1⟩ : BufTy).Contents (Elt F)) : (TRef.of main_v21 h1 h2 h3).ofBuf v = v := rfl
theorem of_v13 (h1 h2 h3) (v : (⟨S8192x8192, .i1⟩ : BufTy).Contents (Elt F)) : (TRef.of main_v13 h1 h2 h3).ofBuf v = v := rfl
theorem to_call2_v0 (h1 h2 h3) (v : (⟨S_, .f32⟩ : BufTy).Contents (Elt F)) : (TRef.of main_call2_v0 h1 h2 h3).toBuf v = v := rfl
theorem of_call2_v0 (h1 h2 h3) (v : (⟨S_, .f32⟩ : BufTy).Contents (Elt F)) : (TRef.of main_call2_v0 h1 h2 h3).ofBuf v = v := rfl
theorem to_call2_v1 (h1 h2 h3) (v : (⟨S8192x8192, .f32⟩ : BufTy).Contents (Elt F)) : (TRef.of main_call2_v1 h1 h2 h3).toBuf v = v := rfl
theorem of_call2_v1 (h1 h2 h3) (v : (⟨S8192x8192, .f32⟩ : BufTy).Contents (Elt F)) : (TRef.of main_call2_v1 h1 h2 h3).ofBuf v = v := rfl
theorem to_v35 (h1 h2 h3) (v : (⟨S8192x8192, .f32⟩ : BufTy).Contents (Elt F)) : (TRef.of main_v35 h1 h2 h3).toBuf v = v := rfl
theorem of_v34 (h1 h2 h3) (v : (⟨S8192x8192, .f32⟩ : BufTy).Contents (Elt F)) : (TRef.of main_v34 h1 h2 h3).ofBuf v = v := rfl
theorem of_cst_5 (h1 h2 h3) (v : (⟨S_, .f32⟩ : BufTy).Contents (Elt F)) : (TRef.of main_cst_5 h1 h2 h3).ofBuf v = v := rfl
theorem to_call3_v0 (h1 h2 h3) (v : (⟨S_, .f32⟩ : BufTy).Contents (Elt F)) : (TRef.of main_call3_v0 h1 h2 h3).toBuf v = v := rfl
theorem of_call3_v0 (h1 h2 h3) (v : (⟨S_, .f32⟩ : BufTy).Contents (Elt F)) : (TRef.of main_call3_v0 h1 h2 h3).ofBuf v = v := rfl
theorem to_call3_v1 (h1 h2 h3) (v : (⟨S8192x8192, .f32⟩ : BufTy).Contents (Elt F)) : (TRef.of main_call3_v1 h1 h2 h3).toBuf v = v := rfl
theorem of_call3_v1 (h1 h2 h3) (v : (⟨S8192x8192, .f32⟩ : BufTy).Contents (Elt F)) : (TRef.of main_call3_v1 h1 h2 h3).ofBuf v = v := rfl
theorem to_v37 (h1 h2 h3) (v : (⟨S8192x8192, .f32⟩ : BufTy).Contents (Elt F)) : (TRef.of main_v37 h1 h2 h3).toBuf v = v := rfl
theorem of_v25 (h1 h2 h3) (v : (⟨S8192x8192, .i1⟩ : BufTy).Contents (Elt F)) : (TRef.of main_v25 h1 h2 h3).ofBuf v = v := rfl
theorem of_cst_7 (h1 h2 h3) (v : (⟨S_, .f32⟩ : BufTy).Contents (Elt F)) : (TRef.of main_cst_7 h1 h2 h3).ofBuf v = v := rfl
theorem to_call4_v0 (h1 h2 h3) (v : (⟨S_, .f32⟩ : BufTy).Contents (Elt F)) : (TRef.of main_call4_v0 h1 h2 h3).toBuf v = v := rfl
theorem of_call4_v0 (h1 h2 h3) (v : (⟨S_, .f32⟩ : BufTy).Contents (Elt F)) : (TRef.of main_call4_v0 h1 h2 h3).ofBuf v = v := rfl
theorem to_call4_v1 (h1 h2 h3) (v : (⟨S8192, .f32⟩ : BufTy).Contents (Elt F)) : (TRef.of main_call4_v1 h1 h2 h3).toBuf v = v := rfl
theorem of_call4_v1 (h1 h2 h3) (v : (⟨S8192, .f32⟩ : BufTy).Contents (Elt F)) : (TRef.of main_call4_v1 h1 h2 h3).ofBuf v = v := rfl
theorem to_v56 (h1 h2 h3) (v : (⟨S8192, .f32⟩ : BufTy).Contents (Elt F)) : (TRef.of main_v56 h1 h2 h3).toBuf v = v := rfl
theorem of_v53 (h1 h2 h3) (v : (⟨S8192, .i1⟩ : BufTy).Contents (Elt F)) : (TRef.of main_v53 h1 h2 h3).ofBuf v = v := rfl
theorem of_v51 (h1 h2 h3) (v : (⟨S8192, .f32⟩ : BufTy).Contents (Elt F)) : (TRef.of main_v51 h1 h2 h3).ofBuf v = v := rfl
theorem of_cst_14 (h1 h2 h3) (v : (⟨S_, .f32⟩ : BufTy).Contents (Elt F)) : (TRef.of main_cst_14 h1 h2 h3).ofBuf v = v := rfl
theorem to_call5_v0 (h1 h2 h3) (v : (⟨S_, .f32⟩ : BufTy).Contents (Elt F)) : (TRef.of main_call5_v0 h1 h2 h3).toBuf v = v := rfl
theorem of_call5_v0 (h1 h2 h3) (v : (⟨S_, .f32⟩ : BufTy).Contents (Elt F)) : (TRef.of main_call5_v0 h1 h2 h3).ofBuf v = v := rfl
theorem to_call5_v1 (h1 h2 h3) (v : (⟨S8192, .f32⟩ : BufTy).Contents (Elt F)) : (TRef.of main_call5_v1 h1 h2 h3).toBuf v = v := rfl
theorem of_call5_v1 (h1 h2 h3) (v : (⟨S8192, .f32⟩ : BufTy).Contents (Elt F)) : (TRef.of main_call5_v1 h1 h2 h3).ofBuf v = v := rfl
theorem to_v62 (h1 h2 h3) (v : (⟨S8192, .f32⟩ : BufTy).Contents (Elt F)) : (TRef.of main_v62 h1 h2 h3).toBuf v = v := rfl
theorem of_v55 (h1 h2 h3) (v : (⟨S8192, .i1⟩ : BufTy).Contents (Elt F)) : (TRef.of main_v55 h1 h2 h3).ofBuf v = v := rfl
theorem of_cst_17 (h1 h2 h3) (v : (⟨S_, .f32⟩ : BufTy).Contents (Elt F)) : (TRef.of main_cst_17 h1 h2 h3).ofBuf v = v := rfl

end Casts

variable {F : FTy → Type} [FloatOps F]

/-! ## Each result buffer after the whole line -/

set_option maxRecDepth 16384 in
set_option maxHeartbeats 4000000 in
theorem after_v44 (m : (ℓ : Loc nD τ sig) → Buf (Elt F) ℓ) (c : Dev nD) :
    after (ops (F := F)) (launchContents m c) (Proc.devRef .tc main_v44)
      = val_main_v44 (F := F) (m ((c.tc : Thread nD τ).loc main_arg0)) (m ((c.tc : Thread nD τ).loc main_arg1)) := by
  refine Eq.trans ?_ (val_main_v44_eq m c)
  simp only [ops, TRef.unary, TRef.ternary, to_call0_v0, of_call0_v0, to_call0_v1, of_call0_v1, to_v16, of_v15, of_v5, of_cst_0, to_call1_v0,
    of_call1_v0, to_v24, of_v24, of_v23, of_v21, of_v13, to_call2_v0, of_call2_v0, to_call2_v1, of_call2_v1, to_v35, of_v34, of_cst_5,
    to_call3_v0, of_call3_v0, to_call3_v1, of_call3_v1, to_v37, of_v25, of_cst_7, to_call4_v0, of_call4_v0, to_call4_v1, of_call4_v1,
    to_v56, of_v53, of_v51, of_cst_14, to_call5_v0, of_call5_v0, to_call5_v1, of_call5_v1, to_v62, of_v55, of_cst_17]
  after_results_simp
  unfold res_main_v44
  rfl

set_option maxRecDepth 16384 in
set_option maxHeartbeats 4000000 in
theorem after_v49 (m : (ℓ : Loc nD τ sig) → Buf (Elt F) ℓ) (c : Dev nD) :
    after (ops (F := F)) (launchContents m c) (Proc.devRef .tc main_v49)
      = val_main_v49 (F := F) (m ((c.tc : Thread nD τ).loc main_arg0)) (m ((c.tc : Thread nD τ).loc main_arg1)) := by
  refine Eq.trans ?_ (val_main_v49_eq m c)
  simp only [ops, TRef.unary, TRef.ternary, to_call0_v0, of_call0_v0, to_call0_v1, of_call0_v1, to_v16, of_v15, of_v5, of_cst_0, to_call1_v0,
    of_call1_v0, to_v24, of_v24, of_v23, of_v21, of_v13, to_call2_v0, of_call2_v0, to_call2_v1, of_call2_v1, to_v35, of_v34, of_cst_5,
    to_call3_v0, of_call3_v0, to_call3_v1, of_call3_v1, to_v37, of_v25, of_cst_7, to_call4_v0, of_call4_v0, to_call4_v1, of_call4_v1,
    to_v56, of_v53, of_v51, of_cst_14, to_call5_v0, of_call5_v0, to_call5_v1, of_call5_v1, to_v62, of_v55, of_cst_17]
  after_results_simp
  unfold res_main_v49
  rfl

set_option maxRecDepth 16384 in
set_option maxHeartbeats 4000000 in
theorem after_v61 (m : (ℓ : Loc nD τ sig) → Buf (Elt F) ℓ) (c : Dev nD) :
    after (ops (F := F)) (launchContents m c) (Proc.devRef .tc main_v61)
      = val_main_v61 (F := F) (m ((c.tc : Thread nD τ).loc main_arg0)) (m ((c.tc : Thread nD τ).loc main_arg1)) := by
  refine Eq.trans ?_ (val_main_v61_eq _ _)
  simp only [ops, TRef.unary, TRef.ternary, to_call0_v0, of_call0_v0, to_call0_v1, of_call0_v1, to_v16, of_v15, of_v5, of_cst_0, to_call1_v0,
    of_call1_v0, to_v24, of_v24, of_v23, of_v21, of_v13, to_call2_v0, of_call2_v0, to_call2_v1, of_call2_v1, to_v35, of_v34, of_cst_5,
    to_call3_v0, of_call3_v0, to_call3_v1, of_call3_v1, to_v37, of_v25, of_cst_7, to_call4_v0, of_call4_v0, to_call4_v1, of_call4_v1,
    to_v56, of_v53, of_v51, of_cst_14, to_call5_v0, of_call5_v0, to_call5_v1, of_call5_v1, to_v62, of_v55, of_cst_17]
  after_results_simp
  rfl

set_option maxRecDepth 16384 in
set_option maxHeartbeats 4000000 in
theorem after_v67 (m : (ℓ : Loc nD τ sig) → Buf (Elt F) ℓ) (c : Dev nD) :
    after (ops (F := F)) (launchContents m c) (Proc.devRef .tc main_v67)
      = val_main_v67 (F := F) (m ((c.tc : Thread nD τ).loc main_arg0)) (m ((c.tc : Thread nD τ).loc main_arg1)) := by
  refine Eq.trans ?_ (val_main_v67_eq _ _)
  simp only [ops, TRef.unary, TRef.ternary, to_call0_v0, of_call0_v0, to_call0_v1, of_call0_v1, to_v16, of_v15, of_v5, of_cst_0, to_call1_v0,
    of_call1_v0, to_v24, of_v24, of_v23, of_v21, of_v13, to_call2_v0, of_call2_v0, to_call2_v1, of_call2_v1, to_v35, of_v34, of_cst_5,
    to_call3_v0, of_call3_v0, to_call3_v1, of_call3_v1, to_v37, of_v25, of_cst_7, to_call4_v0, of_call4_v0, to_call4_v1, of_call4_v1,
    to_v56, of_v53, of_v51, of_cst_14, to_call5_v0, of_call5_v0, to_call5_v1, of_call5_v1, to_v62, of_v55, of_cst_17]
  after_results_simp
  rfl

set_option maxHeartbeats 4000000 in
theorem after_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl
set_option maxHeartbeats 4000000 in
theorem after_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl

/-! ## The run -/

/-- Every weakly fair execution of the reference ends with the four results at their stages of the arguments, the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = val_main_v44 (F := F) (m ((c.tc : Thread nD τ).loc main_arg0)) (m ((c.tc : Thread nD τ).loc main_arg1))
      ∧ r.2.mem ((c.tc : Thread nD τ).loc main_v49) = val_main_v49 (F := F) (m ((c.tc : Thread nD τ).loc main_arg0)) (m ((c.tc : Thread nD τ).loc main_arg1))
      ∧ r.2.mem ((c.tc : Thread nD τ).loc main_v61) = val_main_v61 (F := F) (m ((c.tc : Thread nD τ).loc main_arg0)) (m ((c.tc : Thread nD τ).loc main_arg1))
      ∧ r.2.mem ((c.tc : Thread nD τ).loc main_v67) = val_main_v67 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v44).trans (after_v44 m c), (h c main_v49).trans (after_v49 m c), (h c main_v61).trans (after_v61 m c),
     (h c main_v67).trans (after_v67 m c), (h c main_arg0).trans (after_arg0 m c), (h c main_arg1).trans (after_arg1 m c)⟩)
    (run_seq scopedRefs_eq scopedSems_eq defs main (fun _ => ops) main_eq (fun _ => ops_sub) m ρ)

end Cert.ReferenceIdeal.RunValue

end
-- ==== Proof.Counting.lean ====
/-
  Counting with one-bit words, on the extended reals and in 32-bit words.

  A one-bit word b selects between the numbers one and zero, so the selection IS b's value; summed over a finite set the
  selections count the set bits.  Three consequences used to join two spellings of one loss:
  * the count is positive exactly when the "or" of the bits is one;
  * a sum whose mask is chosen between two masks by one row-wide bit is the same choice between the two sums;
  * the bits widened to 32-bit words and added from zero, then read as a signed integer, give the same count while the
    set has fewer than 2^31 elements (the word sum never wraps and its sign bit stays clear).
-/
import Idealize.ShloMosaic.PureOps.Ideal.Laws
import Idealize.ShloMosaic.Lib.IdealHost
import Idealize.ShloMosaic.Lib.WordSum
import Idealize.ShloMosaic.Lib.ValueIdx

open scoped BigOperators

noncomputable section

namespace Cert.Counting

open Idealize.ShloMosaic

variable {ι : Type}

/-- The f32 patterns of one and of zero, as extended reals. -/
abbrev one : EReal := Ideal.ofBits .f32 0x3F800000#32
abbrev zero : EReal := Ideal.ofBits .f32 0x00000000#32

theorem bit_pos_iff : ∀ b : BitVec 1, 0 < b.toNat ↔ b = 1#1 := by decide
theorem bit_le_one : ∀ b : BitVec 1, b.toNat ≤ 1 := by decide
theorem bit_widen : ∀ b : BitVec 1, (b.setWidth 32).toNat = b.toNat := by decide
theorem ori_eq_one_iff : ∀ x y : BitVec 1, IntOp.ori x y = 1#1 ↔ x = 1#1 ∨ y = 1#1 := by decide

/-- A one-bit word selecting between one and zero is its own value. -/
theorem select_one_zero (b : BitVec 1) : Scalar.select b one zero = (((b.toNat : ℕ) : ℝ) : EReal) := by
  unfold one zero
  rw [Ideal.ofBits_one_f32, Ideal.ofBits_zero_f32]
  rcases BitVec.eq_zero_or_eq_one b with rfl | rfl
  · rw [ValueIdx.select_zero]; simp
  · rw [ValueIdx.select_one]; simp

/-- Summed over a finite set, the selections count the set bits. -/
theorem sum_select_one_zero (s : Finset ι) (f : ι → BitVec 1) :
    ∑ k ∈ s, Scalar.select (f k) one zero = (((∑ k ∈ s, (f k).toNat : ℕ) : ℝ) : EReal) := by
  induction s using Finset.cons_induction with
  | empty => simp
  | cons a s ha ih =>
    rw [Finset.sum_cons, Finset.sum_cons, ih, select_one_zero, Nat.cast_add, EReal.coe_add]

/-- Some element of a set with one more element has a property: the new one, or one of the old. -/
theorem exists_mem_cons {a : ι} {s : Finset ι} (ha : a ∉ s) (P : ι → Prop) :
    (∃ k ∈ Finset.cons a s ha, P k) ↔ P a ∨ ∃ k ∈ s, P k := by
  simp only [Finset.mem_cons, exists_eq_or_imp]

/-- The count is positive exactly when some bit is set. -/
theorem count_pos_iff (s : Finset ι) (f : ι → BitVec 1) : 0 < ∑ k ∈ s, (f k).toNat ↔ ∃ k ∈ s, f k = 1#1 := by
  induction s using Finset.cons_induction with
  | empty => simp
  | cons a s ha ih =>
    rw [Finset.sum_cons, exists_mem_cons ha, ← ih, ← bit_pos_iff]
    omega

/-- "Or" over one-bit words from zero is one exactly when one of them is. -/
theorem fold_ori_eq_one_iff (s : Finset ι) (f : ι → BitVec 1) : s.fold IntOp.ori 0#1 f = 1#1 ↔ ∃ k ∈ s, f k = 1#1 := by
  induction s using Finset.cons_induction with
  | empty => simp
  | cons a s ha ih =>
    rw [Finset.fold_cons, ori_eq_one_iff, ih, exists_mem_cons ha]

/-- So "the count is greater than zero", as a one-bit word, is the "or" of the bits. -/
theorem ogt_count_eq_fold_ori (s : Finset ι) (f : ι → BitVec 1) :
    Ideal.cmp .ogt (∑ k ∈ s, Scalar.select (f k) one zero) zero = s.fold IntOp.ori 0#1 f := by
  have hz : zero = ((0 : ℝ) : EReal) := by unfold zero; rw [Ideal.ofBits_zero_f32]; rfl
  rw [sum_select_one_zero, hz]
  show BitVec.ofBool (decide (((0 : ℝ) : EReal) < (((∑ k ∈ s, (f k).toNat : ℕ) : ℝ) : EReal))) = _
  by_cases h : ∃ k ∈ s, f k = 1#1
  · have hp : ((0 : ℝ) : EReal) < (((∑ k ∈ s, (f k).toNat : ℕ) : ℝ) : EReal) :=
      EReal.coe_lt_coe_iff.mpr (Nat.cast_pos.mpr ((count_pos_iff s f).mpr h))
    rw [(fold_ori_eq_one_iff s f).mpr h, decide_eq_true hp]; rfl
  · have hp : ¬ ((0 : ℝ) : EReal) < (((∑ k ∈ s, (f k).toNat : ℕ) : ℝ) : EReal) := fun hlt =>
      h ((count_pos_iff s f).mp (Nat.cast_pos.mp (EReal.coe_lt_coe_iff.mp hlt)))
    rw [ValueIdx.eq_zero_of_ne_one (mt (fold_ori_eq_one_iff s f).mp h), decide_eq_false hp]; rfl

/-- A sum masked by a choice between two masks, the choice made by one bit for the whole set, is the same choice between
    the two masked sums. -/
theorem sum_select_of_select (h : BitVec 1) (s : Finset ι) (p q : ι → BitVec 1) (w : ι → EReal) (z : EReal) :
    ∑ k ∈ s, Scalar.select (Scalar.select h (p k) (q k)) (w k) z
      = Scalar.select h (∑ k ∈ s, Scalar.select (p k) (w k) z) (∑ k ∈ s, Scalar.select (q k) (w k) z) := by
  rcases BitVec.eq_zero_or_eq_one h with rfl | rfl
  · simp only [ValueIdx.select_zero]
  · simp only [ValueIdx.select_one]

/-- Adding 32-bit words from zero is their sum. -/
theorem fold_addi_eq_sum (s : Finset ι) (g : ι → BitVec 32) : s.fold IntOp.addi 0#32 g = ∑ k ∈ s, g k := by
  induction s using Finset.cons_induction with
  | empty => rfl
  | cons a s ha ih => rw [Finset.fold_cons, Finset.sum_cons, ih]; rfl

/-- The bits widened to words and added from zero, read as a signed integer, count the set bits, for a set of fewer
    than 2^31 elements. -/
theorem toInt_fold_addi_widen (s : Finset ι) (f : ι → BitVec 1) (hs : s.card < 2 ^ 31) :
    (((s.fold IntOp.addi 0#32 (fun k => (f k).setWidth 32)).toInt : ℤ) : ℝ) = ((∑ k ∈ s, (f k).toNat : ℕ) : ℝ) := by
  have hle : ∑ k ∈ s, (f k).toNat ≤ s.card := by
    calc ∑ k ∈ s, (f k).toNat ≤ ∑ _k ∈ s, 1 := Finset.sum_le_sum fun k _ => bit_le_one (f k)
      _ = s.card := by simp
  have hw : ∑ k ∈ s, ((f k).setWidth 32).toNat = ∑ k ∈ s, (f k).toNat := Finset.sum_congr rfl fun k _ => bit_widen (f k)
  have hn : (∑ k ∈ s, (f k).setWidth 32).toNat = ∑ k ∈ s, (f k).toNat := by
    rw [WordSum.toNat_sum s _ (by rw [hw]; omega), hw]
  rw [fold_addi_eq_sum]
  have hi : (∑ k ∈ s, (f k).setWidth 32).toInt = ((∑ k ∈ s, (f k).toNat : ℕ) : ℤ) := by
    rw [BitVec.toInt_eq_toNat_of_lt (by rw [hn]; omega), hn]
  rw [hi]; norm_cast

end Cert.Counting

end
-- ==== Proof.RefRow.lean ====
/-
  The reference, one row at a time.

  The reference forms the whole 8192 x 8192 matrix of pairwise distances and every mask and weight as such a matrix, and
  reduces along the rows.  Read at entry (i, k), each matrix is the row specification's value (Row.lean) for row i's score
  and label against column k; each row reduction is the specification's sum, maximum or "or" over the columns.  Five
  places spell a value differently from the specification, and each is joined by one law:
  * a negative is "not same label", which for one bit is the exclusive-or with one;
  * "the row has a near positive" is the "or" of the bits, which is "their number is greater than zero";
  * the positive logit sums over a mask that the row's flag chooses, which is the flag's choice between the two sums;
  * the loss negates the logarithm, which is zero minus it;
  * the numbers of positives and of negatives of the last row are counted in 32-bit words and converted, which for 8192
    bits is the count in numbers.
  With these the four results are the specification's mean loss, fraction below the cut, and last-row means.
-/
import proofs.«403971_j50818053046733_3_alg».proof.Proof.RefRead
import proofs.«403971_j50818053046733_3_alg».proof.Proof.Row
import proofs.«403971_j50818053046733_3_alg».proof.Proof.Counting
import Idealize.ShloMosaic.Lib.KernelVsHost
import Idealize.ShloMosaic.Lib.IdealHost
import Idealize.ShloMosaic.Lib.ValueIdxRank1

noncomputable section

/-! ## The reference, one row at a time -/

namespace Cert.ReferenceIdeal.RowValue

open Cert.ReferenceIdeal Cert.ReferenceIdeal.Gen Cert.ReferenceIdeal.ReadP Idealize.ShloMosaic Idealize.ShloMosaic.ValueIdx
open scoped BigOperators

variable (x : (⟨S8192, .f32⟩ : BufTy).Contents (Elt Ideal)) (t : (⟨S8192, .i32⟩ : BufTy).Contents (Elt Ideal))

/-- Entry (i, k) of a pairwise matrix reads row i of the column-shaped copy and column k of the row-shaped one. -/
theorem rowIdx (i k : Fin 8192) : idx_main_v0 (idx_main_v2 (ix2 i k)) = ix1 i :=
  funext fun a => Fin.ext (by match a with | ⟨0, _⟩ => rfl)
theorem colIdx (i k : Fin 8192) : idx_main_v1 (idx_main_v3 (ix2 i k)) = ix1 k :=
  funext fun a => Fin.ext (by match a with | ⟨0, _⟩ => rfl)
theorem rowIdxL (i k : Fin 8192) : idx_main_v6 (idx_main_v8 (ix2 i k)) = ix1 i :=
  funext fun a => Fin.ext (by match a with | ⟨0, _⟩ => rfl)
theorem colIdxL (i k : Fin 8192) : idx_main_v7 (idx_main_v9 (ix2 i k)) = ix1 k :=
  funext fun a => Fin.ext (by match a with | ⟨0, _⟩ => rfl)
/-- A per-row value spread over the matrix reads row i. -/
theorem rowIdxT (i k : Fin 8192) : idx_main_v18 (idx_main_v19 (ix2 i k)) = ix1 i :=
  funext fun a => Fin.ext (by match a with | ⟨0, _⟩ => rfl)
theorem rowIdxH (i k : Fin 8192) : idx_main_v23 (idx_main_call1_v0 (ix2 i k)) = ix1 i :=
  funext fun a => Fin.ext (by match a with | ⟨0, _⟩ => rfl)
theorem rowIdxB (i k : Fin 8192) : idx_main_v29 (idx_main_v30 (ix2 i k)) = ix1 i :=
  funext fun a => Fin.ext (by match a with | ⟨0, _⟩ => rfl)

/-- Entry (i, k) of the matrix is row index i with k put on the column axis. -/
theorem lift_eq (h : S8192x8192.Reduces [1] S8192) (i k : Fin 8192) : h.lift (ix1 i) k = ix2 i k :=
  funext fun a => Fin.ext (by match a with | ⟨0, _⟩ => rfl | ⟨1, _⟩ => rfl)

/-- The distances. -/
theorem dist_eq (i k : Fin 8192) : val_main_v5 (F := Ideal) x (ix2 i k) = Row.dist (x (ix1 i)) (Row.col x) k := by
  rw [val_main_v5_apply, val_main_v4_apply, val_main_v2_apply, val_main_v0_apply, val_main_v3_apply, val_main_v1_apply, rowIdx, colIdx]
  rfl

/-- Equal labels. -/
theorem same_eq (i k : Fin 8192) : val_main_v10 (F := Ideal) t (ix2 i k) = Row.same (t (ix1 i)) (Row.col t) k := by
  rw [val_main_v10_apply, val_main_v8_apply, val_main_v6_apply, val_main_v9_apply, val_main_v7_apply, rowIdxL, colIdxL]
  rfl

/-- The positives. -/
theorem pos_eq (i k : Fin 8192) :
    val_main_v13 (F := Ideal) x t (ix2 i k) = Row.pos (x (ix1 i)) (t (ix1 i)) (Row.col x) (Row.col t) k := by
  unfold Row.pos
  rw [val_main_v13_apply, val_main_v12_apply, val_main_v11_apply, val_main_cst_apply, same_eq, dist_eq, Ideal.cmpf_def, Ideal.ofBits_def]

/-- The negatives: "not" of a bit is its exclusive-or with one. -/
theorem neg_eq (i k : Fin 8192) : val_main_v14 (F := Ideal) t (ix2 i k) = Row.neg (t (ix1 i)) (Row.col t) k := by
  unfold Row.neg
  rw [val_main_v14_apply, same_eq]
  exact (xori_one_eq_not _).symm

/-- The distances masked to the positives and negatives, minus infinity elsewhere. -/
theorem masked_eq (i k : Fin 8192) :
    val_main_v16 (F := Ideal) x t (ix2 i k)
      = Scalar.select (IntOp.ori (Row.pos (x (ix1 i)) (t (ix1 i)) (Row.col x) (Row.col t) k) (Row.neg (t (ix1 i)) (Row.col t) k))
          (Row.dist (x (ix1 i)) (Row.col x) k) Row.negInf := by
  rw [val_main_v16_apply, val_main_v15_apply, pos_eq, neg_eq, dist_eq, val_main_call0_v1_apply, val_main_call0_v0_apply,
    val_main_cst_0_apply, Ideal.ofBits_def]

/-- The row's threshold. -/
theorem thresh_eq (i : Fin 8192) :
    val_main_v17 (F := Ideal) x t (ix1 i) = Row.thresh (x (ix1 i)) (t (ix1 i)) (Row.col x) (Row.col t) := by
  unfold val_main_v17 Row.thresh
  rw [Host.reduce_eq_fold_single FloatOps.maximumf _ _ reducesTo_S8192x8192_S8192_d1 (by decide : S8192x8192.Reduces [1] S8192) h_S_ (ix1 i)]
  refine congrArg₂ (fun b f => (Finset.univ : Finset (Fin 8192)).fold max b f) rfl (funext fun k => ?_)
  exact (congrArg (val_main_v16 (F := Ideal) x t) (lift_eq _ i k)).trans (masked_eq x t i k)

/-- Below the threshold. -/
theorem near_eq (i k : Fin 8192) :
    val_main_v20 (F := Ideal) x t (ix2 i k) = Row.near (x (ix1 i)) (t (ix1 i)) (Row.col x) (Row.col t) k := by
  unfold Row.near
  rw [val_main_v20_apply, val_main_v19_apply, val_main_v18_apply, rowIdxT, thresh_eq, dist_eq, Ideal.cmpf_def]

theorem posNear_eq (i k : Fin 8192) :
    val_main_v21 (F := Ideal) x t (ix2 i k) = Row.posNear (x (ix1 i)) (t (ix1 i)) (Row.col x) (Row.col t) k := by
  unfold Row.posNear
  rw [val_main_v21_apply, pos_eq, near_eq]
theorem negNear_eq (i k : Fin 8192) :
    val_main_v25 (F := Ideal) x t (ix2 i k) = Row.negNear (x (ix1 i)) (t (ix1 i)) (Row.col x) (Row.col t) k := by
  unfold Row.negNear
  rw [val_main_v25_apply, neg_eq, near_eq]

/-- The row has a near positive: the "or" of the bits is "their number is positive". -/
theorem has_eq (i : Fin 8192) :
    val_main_v22 (F := Ideal) x t (ix1 i) = Row.hasNear (x (ix1 i)) (t (ix1 i)) (Row.col x) (Row.col t) := by
  unfold val_main_v22 Row.hasNear
  rw [Host.reduce_eq_fold_single IntOp.ori _ _ reducesTo_S8192x8192_S8192_d1 (by decide : S8192x8192.Reduces [1] S8192) h_S_ (ix1 i)]
  refine Eq.trans ?_ (Cert.Counting.ogt_count_eq_fold_ori Finset.univ _).symm
  refine congrArg₂ (fun b f => (Finset.univ : Finset (Fin 8192)).fold IntOp.ori b f) rfl (funext fun k => ?_)
  exact (congrArg (val_main_v21 (F := Ideal) x t) (lift_eq _ i k)).trans (posNear_eq x t i k)

/-- The row's mean distance, and the weights. -/
theorem base_eq (i : Fin 8192) : val_main_v28 (F := Ideal) x (ix1 i) = Row.base (x (ix1 i)) (Row.col x) := by
  unfold Row.base
  rw [val_main_v28_apply, val_main_v26_apply, val_main_v27_apply, val_main_cst_3_apply, val_main_cst_2_apply, Ideal.hostDivf_def,
    Ideal.ofBits_def, Ideal.ofBits_def, Ideal.ofBits_zero_f32, zero_add]
  refine congrArg (fun s => Ideal.div s Row.width) (Finset.sum_congr rfl fun k _ => ?_)
  rw [show idx_main_v26 (ix1 i) k = ix2 i k from funext fun a => Fin.ext (by match a with | ⟨0, _⟩ => rfl | ⟨1, _⟩ => rfl), dist_eq]

theorem weight_eq (i k : Fin 8192) : val_main_v34 (F := Ideal) x (ix2 i k) = Row.weight (x (ix1 i)) (Row.col x) k := by
  unfold Row.weight
  rw [val_main_v34_apply, val_main_v33_apply, val_main_v32_apply, val_main_cst_4_apply, val_main_v31_apply, val_main_v30_apply,
    val_main_v29_apply, rowIdxB, base_eq, dist_eq, Ideal.hostUnary_exp_def, Ideal.mulf_def, Ideal.subf_def, Ideal.ofBits_def]

end Cert.ReferenceIdeal.RowValue

namespace Cert.ReferenceIdeal.RowValue

open Cert.ReferenceIdeal Cert.ReferenceIdeal.Gen Cert.ReferenceIdeal.ReadP Idealize.ShloMosaic Idealize.ShloMosaic.ValueIdx
open scoped BigOperators

variable (x : (⟨S8192, .f32⟩ : BufTy).Contents (Elt Ideal)) (t : (⟨S8192, .i32⟩ : BufTy).Contents (Elt Ideal))

/-- The summation index of a row's sum is entry (i, k). -/
theorem sumIdx36 (i k : Fin 8192) : idx_main_v36 (ix1 i) k = ix2 i k :=
  funext fun a => Fin.ext (by match a with | ⟨0, _⟩ => rfl | ⟨1, _⟩ => rfl)
theorem sumIdx38 (i k : Fin 8192) : idx_main_v38 (ix1 i) k = ix2 i k :=
  funext fun a => Fin.ext (by match a with | ⟨0, _⟩ => rfl | ⟨1, _⟩ => rfl)

/-- The positive logit: the reference chooses the MASK by the row's flag and then sums; that is the flag's choice between
    the two sums. -/
theorem posLogit_eq (i : Fin 8192) :
    val_main_v36 (F := Ideal) x t (ix1 i) = Row.posLogit (x (ix1 i)) (t (ix1 i)) (Row.col x) (Row.col t) := by
  unfold Row.posLogit
  rw [val_main_v36_apply, val_main_cst_6_apply, Ideal.ofBits_def, Ideal.ofBits_zero_f32, zero_add]
  refine Eq.trans (Finset.sum_congr rfl fun k _ => ?_)
    (Cert.Counting.sum_select_of_select (Row.hasNear (x (ix1 i)) (t (ix1 i)) (Row.col x) (Row.col t)) Finset.univ
      (Row.posNear (x (ix1 i)) (t (ix1 i)) (Row.col x) (Row.col t)) (Row.pos (x (ix1 i)) (t (ix1 i)) (Row.col x) (Row.col t))
      (Row.weight (x (ix1 i)) (Row.col x)) Row.zero)
  rw [sumIdx36, val_main_v35_apply, val_main_v24_apply, val_main_call1_v0_apply, val_main_v23_apply, rowIdxH, has_eq, posNear_eq,
    pos_eq, weight_eq, val_main_call2_v1_apply, val_main_call2_v0_apply, val_main_cst_5_apply, Ideal.ofBits_def]

/-- The negative logit. -/
theorem negLogit_eq (i : Fin 8192) :
    val_main_v38 (F := Ideal) x t (ix1 i) = Row.negLogit (x (ix1 i)) (t (ix1 i)) (Row.col x) (Row.col t) := by
  unfold Row.negLogit
  rw [val_main_v38_apply, val_main_cst_8_apply, Ideal.ofBits_def, Ideal.ofBits_zero_f32, zero_add]
  refine Finset.sum_congr rfl fun k _ => ?_
  rw [sumIdx38, val_main_v37_apply, negNear_eq, weight_eq, val_main_call3_v1_apply, val_main_call3_v0_apply, val_main_cst_7_apply,
    Ideal.ofBits_def]

/-- The row's loss: the reference negates the logarithm, which is zero minus it. -/
theorem loss_eq (i : Fin 8192) : val_main_v42 (F := Ideal) x t (ix1 i) = Row.lossAt x t i := by
  unfold Row.lossAt Row.loss
  rw [val_main_v42_apply, val_main_v41_apply, val_main_v40_apply, val_main_v39_apply, posLogit_eq, negLogit_eq,
    Ideal.hostUnary_log_def, Ideal.hostDivf_def, Ideal.addf_def]
  exact (Ideal.subf_zero_eq_hostNegf _).symm

/-- Every index of a length-8192 array is a position. -/
theorem sum_positions (f : S8192.Idx → EReal) : ∑ j : S8192.Idx, f j = ∑ k : Fin 8192, f (ix1 k) :=
  (Equiv.sum_comp (idxEquiv1 (n := 8192)).symm f).symm

/-! ## The four results -/

theorem meanLoss_eq : val_main_v44 (F := Ideal) x t = fun _ => Row.meanLoss x t := by
  funext j
  unfold Row.meanLoss
  rw [val_main_v44_apply, val_main_v43_apply, val_main_cst_9_apply, val_main_cst_10_apply, Ideal.hostDivf_def, Ideal.ofBits_def,
    Ideal.ofBits_def]
  refine congrArg (fun s => Ideal.div (Row.zero + s) Row.width) (Finset.sum_congr rfl fun i _ => ?_)
  obtain ⟨r, rfl⟩ : ∃ r : Fin 8192, i = ix1 r := ⟨i 0, eq_ix1 i⟩
  exact loss_eq x t r

theorem fracBelow_eq : val_main_v49 (F := Ideal) x t = fun _ => Row.fracBelow x t := by
  funext j
  unfold Row.fracBelow
  rw [val_main_v49_apply, val_main_v48_apply, val_main_cst_12_apply, val_main_cst_13_apply, Ideal.hostDivf_def, Ideal.ofBits_def,
    Ideal.ofBits_def]
  refine congrArg (fun s => Ideal.div (Row.zero + s) Row.width) (Finset.sum_congr rfl fun i _ => ?_)
  obtain ⟨r, rfl⟩ : ∃ r : Fin 8192, i = ix1 r := ⟨i 0, eq_ix1 i⟩
  rw [val_main_v47_apply, val_main_v46_apply, val_main_v45_apply, val_main_cst_11_apply, loss_eq, Ideal.cmpf_def, Ideal.ofBits_def]
  rfl

/-- The last row of a pairwise matrix, as a length-8192 array, reads entry (8191, k). -/
theorem lastIdx50 (k : Fin 8192) : idx_main_v50 (idx_main_v51 (ix1 k)) = ix2 Row.last k :=
  funext fun a => Fin.ext (by
    match a with
    | ⟨0, _⟩ => rfl
    | ⟨1, _⟩ => show k.val % 8192 = k.val; exact Nat.mod_eq_of_lt k.isLt)
theorem lastIdx52 (k : Fin 8192) : idx_main_v52 (idx_main_v53 (ix1 k)) = ix2 Row.last k :=
  funext fun a => Fin.ext (by
    match a with
    | ⟨0, _⟩ => rfl
    | ⟨1, _⟩ => show k.val % 8192 = k.val; exact Nat.mod_eq_of_lt k.isLt)
theorem lastIdx54 (k : Fin 8192) : idx_main_v54 (idx_main_v55 (ix1 k)) = ix2 Row.last k :=
  funext fun a => Fin.ext (by
    match a with
    | ⟨0, _⟩ => rfl
    | ⟨1, _⟩ => show k.val % 8192 = k.val; exact Nat.mod_eq_of_lt k.isLt)

theorem lastDist (k : Fin 8192) : val_main_v51 (F := Ideal) x (ix1 k) = Row.dist (x (ix1 Row.last)) (Row.col x) k := by
  rw [val_main_v51_apply, val_main_v50_apply, lastIdx50, dist_eq]
theorem lastPos (k : Fin 8192) :
    val_main_v53 (F := Ideal) x t (ix1 k) = Row.pos (x (ix1 Row.last)) (t (ix1 Row.last)) (Row.col x) (Row.col t) k := by
  rw [val_main_v53_apply, val_main_v52_apply, lastIdx52, pos_eq]
theorem lastNeg (k : Fin 8192) : val_main_v55 (F := Ideal) t (ix1 k) = Row.neg (t (ix1 Row.last)) (Row.col t) k := by
  rw [val_main_v55_apply, val_main_v54_apply, lastIdx54, neg_eq]

/-- A count taken in 32-bit words over all positions and converted is the count taken in numbers: 8192 bits cannot wrap a
    word. -/
theorem count_eq (g : S8192.Idx → BitVec 1) :
    (FloatOps.sitofp (F := Ideal) .f32 ((Finset.univ : Finset S8192.Idx).fold IntOp.addi 0#32 (fun i => (g i).setWidth 32)) : EReal)
      = ∑ k : Fin 8192, Scalar.select (g (ix1 k)) Row.one Row.zero := by
  refine Eq.trans ?_ (sum_positions (fun i => Scalar.select (g i) Row.one Row.zero))
  rw [Cert.Counting.sum_select_one_zero]
  show ((((Finset.univ.fold IntOp.addi 0#32 (fun i => (g i).setWidth 32)).toInt : ℤ) : ℝ) : EReal) = _
  rw [Cert.Counting.toInt_fold_addi_widen _ _
    (by rw [Finset.card_univ, Fintype.card_congr (idxEquiv1 (n := 8192)), Fintype.card_fin]; decide)]

/-- The scalar shape has one index. -/
instance : Subsingleton S_.Idx := ⟨fun a b => funext fun d => d.elim0⟩

/-- A host reduction of a whole length-8192 array to a scalar folds over every position. -/
theorem reduceAll_eq (f : BitVec 32 → BitVec 32 → BitVec 32) [Std.Commutative f] [Std.Associative f]
    (v : S8192.Idx → BitVec 32) (init : S_.Idx → BitVec 32) (j : S_.Idx) :
    Host.reduce f v init reducesTo_S8192_S_d0 h_S_ j = (Finset.univ : Finset S8192.Idx).fold f (init (Shape.Idx.first h_S_)) v := by
  rw [Host.reduce_eq_fold, Finset.filter_true_of_mem fun i _ => Subsingleton.elim _ _]

end Cert.ReferenceIdeal.RowValue

namespace Cert.ReferenceIdeal.RowValue

open Cert.ReferenceIdeal Cert.ReferenceIdeal.Gen Cert.ReferenceIdeal.ReadP Idealize.ShloMosaic Idealize.ShloMosaic.ValueIdx
open scoped BigOperators

variable (x : (⟨S8192, .f32⟩ : BufTy).Contents (Elt Ideal)) (t : (⟨S8192, .i32⟩ : BufTy).Contents (Elt Ideal))

theorem meanPos_eq : val_main_v61 (F := Ideal) x t = fun _ => Row.meanPos x t := by
  funext j
  unfold Row.meanPos Row.posSumAt Row.posCntAt
  rw [val_main_v61_apply, Ideal.hostDivf_def]
  refine congrArg₂ Ideal.div ?_ ?_
  · unfold Row.posSum
    rw [val_main_v57_apply, val_main_cst_15_apply, Ideal.ofBits_def, Ideal.ofBits_zero_f32, zero_add, sum_positions]
    refine Finset.sum_congr rfl fun k _ => ?_
    rw [val_main_v56_apply, lastPos, lastDist, val_main_call4_v1_apply, val_main_call4_v0_apply, val_main_cst_14_apply, Ideal.ofBits_def]
  · unfold Row.posCnt
    rw [val_main_v60_apply]
    unfold val_main_v59
    rw [reduceAll_eq]
    exact (count_eq (val_main_v53 (F := Ideal) x t)).trans (Finset.sum_congr rfl fun k _ => by rw [lastPos])

theorem meanNeg_eq : val_main_v67 (F := Ideal) x t = fun _ => Row.meanNeg x t := by
  funext j
  unfold Row.meanNeg Row.negSumAt Row.negCntAt
  rw [val_main_v67_apply, Ideal.hostDivf_def]
  refine congrArg₂ Ideal.div ?_ ?_
  · unfold Row.negSum
    rw [val_main_v63_apply, val_main_cst_18_apply, Ideal.ofBits_def, Ideal.ofBits_zero_f32, zero_add, sum_positions]
    refine Finset.sum_congr rfl fun k _ => ?_
    rw [val_main_v62_apply, lastNeg, lastDist, val_main_call5_v1_apply, val_main_call5_v0_apply, val_main_cst_17_apply, Ideal.ofBits_def]
  · unfold Row.negCnt
    rw [val_main_v66_apply]
    unfold val_main_v65
    rw [reduceAll_eq]
    exact (count_eq (val_main_v55 (F := Ideal) t)).trans (Finset.sum_congr rfl fun k _ => by rw [lastNeg])

end Cert.ReferenceIdeal.RowValue

end
-- ==== Proof.lean ====
/-
  The pairwise neighbourhood loss: the kernel against its reference, on the extended reals.

  Both programs compute, for every row i of 8192 scores and labels, the row's loss and the sums and numbers of its positive
  and negative pairs, all against all 8192 columns, and return the mean loss, the fraction of rows with loss below 0.6, and
  the last row's mean positive and mean negative distance (Row.lean states these as functions of the two arrays).  The
  kernel does it 128 rows at a time, each point of its grid holding the 128 x 8192 tile of distances, masks and weights and
  storing five 128 x 1 columns; after the region it averages and divides.  The reference does it on the whole
  8192 x 8192 matrices.  No algebra on sums is needed (every row's sums run over all the columns in both), only five
  re-spellings of one value (RefRow.lean), so the inputs' finiteness is never used.

  The three frames: the two kernel programs' are the generated ones; the reference's is its run with the results dropped.
  The idealization rewrote nothing, so there is nothing to preserve.
-/
import proofs.«403971_j50818053046733_3_alg».proof.Defs
import proofs.«403971_j50818053046733_3_alg».proof.Proof.Gen.Kernel
import proofs.«403971_j50818053046733_3_alg».proof.Proof.Gen.Kernel.Frame
import proofs.«403971_j50818053046733_3_alg».proof.Proof.Gen.KernelIdeal
import proofs.«403971_j50818053046733_3_alg».proof.Proof.Gen.KernelIdeal.Frame
import proofs.«403971_j50818053046733_3_alg».proof.Proof.Gen.ReferenceIdeal
import proofs.«403971_j50818053046733_3_alg».proof.Proof.Gen.Pre_finite_inputs
import proofs.«403971_j50818053046733_3_alg».proof.Proof.KernelTail
import proofs.«403971_j50818053046733_3_alg».proof.Proof.RefRunClose
import proofs.«403971_j50818053046733_3_alg».proof.Proof.RefRow
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2.2.2)
    (Cert.ReferenceIdeal.RunValue.run (F := Ideal) m ρ)

theorem preserves : Cert.preserves_Kernel_KernelIdeal := trivial

/-- Both programs end with the four results of the row specification at the arguments, which agree. -/
theorem algebraic : Cert.algebraic_KernelIdeal_ReferenceIdeal := by
  intro m ρ m' ρ' _ hagree
  refine ⟨fun c _ => Cert.Row.meanLoss (Cert.KernelIdeal.ArrayValue.xs m c) (Cert.KernelIdeal.ArrayValue.ts m c),
    fun c _ => Cert.Row.fracBelow (Cert.KernelIdeal.ArrayValue.xs m c) (Cert.KernelIdeal.ArrayValue.ts m c),
    fun c _ => Cert.Row.meanPos (Cert.KernelIdeal.ArrayValue.xs m c) (Cert.KernelIdeal.ArrayValue.ts m c),
    fun c _ => Cert.Row.meanNeg (Cert.KernelIdeal.ArrayValue.xs m c) (Cert.KernelIdeal.ArrayValue.ts m c),
    Cert.KernelIdeal.TailValue.run m ρ, ?_⟩
  refine (θ_run Cert.ReferenceIdeal.defs _ _).mono (fun _ h c => ?_) (Cert.ReferenceIdeal.RunValue.run (F := Ideal) m' ρ')
  obtain ⟨h0, h1, h2, h3, h4, h5⟩ := h c
  obtain ⟨a0, a1⟩ := hagree c
  refine ⟨h0.trans ?_, h1.trans ?_, h2.trans ?_, h3.trans ?_, h4, h5⟩
  · rw [Cert.ReferenceIdeal.RowValue.meanLoss_eq, a0, a1]; rfl
  · rw [Cert.ReferenceIdeal.RowValue.fracBelow_eq, a0, a1]; rfl
  · rw [Cert.ReferenceIdeal.RowValue.meanPos_eq, a0, a1]; rfl
  · rw [Cert.ReferenceIdeal.RowValue.meanNeg_eq, a0, a1]; rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
